-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32000x64 : Shape := ⟨3, ![16, 32000, 64]⟩
abbrev S_ : Shape := ⟨0, ![]⟩

class Facts : Prop where
  bcast_S_S16x32000x64 : S_.BroadcastsInDim S16x32000x64 (![] : Fin 0 → Fin S16x32000x64.rank)
  reducesTo_S16x32000x64_S_d0_1_2 : S16x32000x64.ReducesTo [0, 1, 2] S_
  h_S_ : 0 < S_.numel

variable [Facts]

def fn {F : FTy → Type} [FloatOps F] (main_arg0 : FVec F S16x32000x64 .f32) : IVec S_ 1 :=
  let main_v0 : FVec F S16x32000x64 .f32 := Host.absf main_arg0
  let main_cst : FVec F S_ .f32 := constant S_ .f32 0x7F800000#32
  let main_v1 : FVec F S16x32000x64 .f32 := broadcastInDim S16x32000x64 ![] bcast_S_S16x32000x64 main_cst
  let main_v2 : IVec S16x32000x64 1 := cmpf .olt main_v0 main_v1
  let main_c : IVec S_ 1 := constantI S_ 1 1#1
  let main_v3 : IVec S_ 1 := (fun x v => Host.reduce IntOp.andi x v reducesTo_S16x32000x64_S_d0_1_2 h_S_) main_v2 main_c
  main_v3
-- ==== Kernel.lean ====
abbrev S16x32000x64 : Shape := ⟨3, ![16, 32000, 64]⟩
abbrev S_ : Shape := ⟨0, ![]⟩
abbrev S16x32256x64 : Shape := ⟨3, ![16, 32256, 64]⟩
abbrev S16x256x250x64 : Shape := ⟨4, ![16, 256, 250, 64]⟩
abbrev S16x1000x64 : Shape := ⟨3, ![16, 1000, 64]⟩
abbrev S16x200x64 : Shape := ⟨3, ![16, 200, 64]⟩
abbrev S16x8x250x64 : Shape := ⟨4, ![16, 8, 250, 64]⟩
abbrev S16x250x64 : Shape := ⟨3, ![16, 250, 64]⟩
abbrev S16x1x250x64 : Shape := ⟨4, ![16, 1, 250, 64]⟩
abbrev S16x125x64 : Shape := ⟨3, ![16, 125, 64]⟩
abbrev S16x255x250x64 : Shape := ⟨4, ![16, 255, 250, 64]⟩

abbrev nBuf : Space → Nat
  | .hbm => 6
  | .vmem => 6
  | .smem => 0
  | _ => 0

abbrev bufTy : (tb : Table) → Fin (tcTables nBuf tb) → BufTy
  | .hbm, ⟨0, _⟩ => ⟨S16x32000x64, .f32⟩
  | .hbm, ⟨1, _⟩ => ⟨S_, .i32⟩
  | .hbm, ⟨2, _⟩ => ⟨S_, .f32⟩
  | .hbm, ⟨3, _⟩ => ⟨S16x32256x64, .f32⟩
  | .hbm, ⟨4, _⟩ => ⟨S16x256x250x64, .f32⟩
  | .hbm, ⟨5, _⟩ => ⟨S16x255x250x64, .f32⟩
  | .local _ .vmem, ⟨0, _⟩ => ⟨S16x1000x64, .f32⟩
  | .local _ .vmem, ⟨1, _⟩ => ⟨S16x1000x64, .f32⟩
  | .local _ .vmem, ⟨2, _⟩ => ⟨S16x200x64, .f32⟩
  | .local _ .vmem, ⟨3, _⟩ => ⟨S16x200x64, .f32⟩
  | .local _ .vmem, ⟨4, _⟩ => ⟨S16x8x250x64, .f32⟩
  | .local _ .vmem, ⟨5, _⟩ => ⟨S16x8x250x64, .f32⟩
  | _, _ => ⟨S16x32000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c5_i32 : BitVec 32 := 5#32
  let v1 : BitVec 32 := Scalar.muli c5_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x250x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S16x32000x64_S16x32256x64_000_02560_000 : S16x32000x64.Pads (![0, 0, 0] : Fin 3 → Nat) ![0, 256, 0] ![0, 0, 0] S16x32256x64
  h_S_ : 0 < S_.numel
  inb_S16x1000x64_S16x1000x64_0_0_0 : ∀ a, (![0, 0, 0] : Fin 3 → Nat) a + S16x1000x64.size a ≤ S16x1000x64.size a
  h_S16x1000x64 : 0 < S16x1000x64.numel
  shapeCasts_S16x1000x64_S16x1000x64 : S16x1000x64.ShapeCasts S16x1000x64
  inb_S16x200x64_S16x200x64_0_0_0 : ∀ a, (![0, 0, 0] : Fin 3 → Nat) a + S16x200x64.size a ≤ S16x200x64.size a
  h_S16x200x64 : 0 < S16x200x64.numel
  shapeCasts_S16x200x64_S16x200x64 : S16x200x64.ShapeCasts S16x200x64
  slices_S16x1000x64_o0_0_0_S16x250x64 : S16x1000x64.Slices ![0, 0, 0] S16x250x64
  slices_S16x1000x64_o0_125_0_S16x250x64 : S16x1000x64.Slices ![0, 125, 0] S16x250x64
  inb_S16x8x250x64_S16x1x250x64_0_0_0_0 : ∀ a, (![0, 0, 0, 0] : Fin 4 → Nat) a + S16x1x250x64.size a ≤ S16x8x250x64.size a
  h_S16x1x250x64 : 0 < S16x1x250x64.numel
  shapeCasts_S16x1x250x64_S16x250x64 : S16x1x250x64.ShapeCasts S16x250x64
  shapeCasts_S16x250x64_S16x1x250x64 : S16x250x64.ShapeCasts S16x1x250x64
  inb_S16x8x250x64_S16x1x250x64_0_1_0_0 : ∀ a, (![0, 1, 0, 0] : Fin 4 → Nat) a + S16x1x250x64.size a ≤ S16x8x250x64.size a
  slices_S16x1000x64_o0_250_0_S16x250x64 : S16x1000x64.Slices ![0, 250, 0] S16x250x64
  slices_S16x1000x64_o0_375_0_S16x250x64 : S16x1000x64.Slices ![0, 375, 0] S16x250x64
  inb_S16x8x250x64_S16x1x250x64_0_2_0_0 : ∀ a, (![0, 2, 0, 0] : Fin 4 → Nat) a + S16x1x250x64.size a ≤ S16x8x250x64.size a
  inb_S16x8x250x64_S16x1x250x64_0_3_0_0 : ∀ a, (![0, 3, 0, 0] : Fin 4 → Nat) a + S16x1x250x64.size a ≤ S16x8x250x64.size a
  slices_S16x1000x64_o0_500_0_S16x250x64 : S16x1000x64.Slices ![0, 500, 0] S16x250x64
  slices_S16x1000x64_o0_625_0_S16x250x64 : S16x1000x64.Slices ![0, 625, 0] S16x250x64
  inb_S16x8x250x64_S16x1x250x64_0_4_0_0 : ∀ a, (![0, 4, 0, 0] : Fin 4 → Nat) a + S16x1x250x64.size a ≤ S16x8x250x64.size a
  inb_S16x8x250x64_S16x1x250x64_0_5_0_0 : ∀ a, (![0, 5, 0, 0] : Fin 4 → Nat) a + S16x1x250x64.size a ≤ S16x8x250x64.size a
  slices_S16x1000x64_o0_750_0_S16x250x64 : S16x1000x64.Slices ![0, 750, 0] S16x250x64
  slices_S16x1000x64_o0_875_0_S16x125x64 : S16x1000x64.Slices ![0, 875, 0] S16x125x64
  slices_S16x200x64_o0_0_0_S16x125x64 : S16x200x64.Slices ![0, 0, 0] S16x125x64
  concatenates_S16x125x64_S16x125x64_S16x250x64_d1 : Shape.Concatenates [S16x125x64, S16x125x64] S16x250x64 1
  inb_S16x8x250x64_S16x1x250x64_0_6_0_0 : ∀ a, (![0, 6, 0, 0] : Fin 4 → Nat) a + S16x1x250x64.size a ≤ S16x8x250x64.size a
  inb_S16x8x250x64_S16x1x250x64_0_7_0_0 : ∀ a, (![0, 7, 0, 0] : Fin 4 → Nat) a + S16x1x250x64.size a ≤ S16x8x250x64.size a
  slices_S16x256x250x64_S16x255x250x64_0_0_0_0 : S16x256x250x64.Slices ![0, 0, 0, 0] S16x255x250x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x1000x64.size a < S16x32256x64.size a
  hwx0_0 : ∀ i : grid0.Coords, EltTy.bits .f32 = 32 ∨ (Rect.unit (s := S16x32256x64) (fun a => cc0_transform_0 i a * S16x1000x64.size a) (fun a => (Pipeline.Clip.of (cc0_transform_0 i a) (S16x1000x64.size a) (S16x32256x64.size a)).extent (S16x1000x64.size a)) fun a => Pipeline.Clip.inb (Pipeline.Clip.ok_of (hstart0_0 i a))).WholeWords (EltTy.packing .f32)
  hwxs0_0 : ∀ i : grid0.Coords, EltTy.bits .f32 = 32 ∨ (Rect.unit (s := S16x1000x64) (fun _ => 0) (fun a => (Pipeline.Clip.of (cc0_transform_0 i a) (S16x1000x64.size a) (S16x32256x64.size a)).extent (S16x1000x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16x200x64.size a < S16x32256x64.size a
  hwx0_1 : ∀ i : grid0.Coords, EltTy.bits .f32 = 32 ∨ (Rect.unit (s := S16x32256x64) (fun a => cc0_transform_1 i a * S16x200x64.size a) (fun a => (Pipeline.Clip.of (cc0_transform_1 i a) (S16x200x64.size a) (S16x32256x64.size a)).extent (S16x200x64.size a)) fun a => Pipeline.Clip.inb (Pipeline.Clip.ok_of (hstart0_1 i a))).WholeWords (EltTy.packing .f32)
  hwxs0_1 : ∀ i : grid0.Coords, EltTy.bits .f32 = 32 ∨ (Rect.unit (s := S16x200x64) (fun _ => 0) (fun a => (Pipeline.Clip.of (cc0_transform_1 i a) (S16x200x64.size a) (S16x32256x64.size a)).extent (S16x200x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8x250x64.size a ≤ S16x256x250x64.size a
  hwx0_2 : ∀ i : grid0.Coords, EltTy.bits .f32 = 32 ∨ (Rect.block (s := S16x256x250x64) S16x8x250x64.size (cc0_transform_2 i) (hinb0_2 i)).WholeWords (EltTy.packing .f32)

variable [Facts₀]

abbrev win0_0 : Pipeline.Window sig grid0 :=
  Pipeline.Window.ofSpecClip (Memref.whole main_v0) S16x1000x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S16x200x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S16x8x250x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32000x64 : Shape := ⟨3, ![16, 32000, 64]⟩
abbrev S255 : Shape := ⟨1, ![255]⟩
abbrev S16x128x250x64 : Shape := ⟨4, ![16, 128, 250, 64]⟩
abbrev S16x31875x64 : Shape := ⟨3, ![16, 31875, 64]⟩
abbrev S16x125x64 : Shape := ⟨3, ![16, 125, 64]⟩
abbrev S16x127x250x64 : Shape := ⟨4, ![16, 127, 250, 64]⟩
abbrev S16x255x250x64 : Shape := ⟨4, ![16, 255, 250, 64]⟩
abbrev S_ : Shape := ⟨0, ![]⟩
abbrev S255x1 : Shape := ⟨2, ![255, 1]⟩
abbrev S1 : Shape := ⟨1, ![1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x32000x64, .f32⟩
  | .hbm, ⟨1, _⟩ => ⟨S255, .i32⟩
  | .hbm, ⟨2, _⟩ => ⟨S16x128x250x64, .f32⟩
  | .hbm, ⟨3, _⟩ => ⟨S16x31875x64, .f32⟩
  | .hbm, ⟨4, _⟩ => ⟨S16x125x64, .f32⟩
  | .hbm, ⟨5, _⟩ => ⟨S16x32000x64, .f32⟩
  | .hbm, ⟨6, _⟩ => ⟨S16x128x250x64, .f32⟩
  | .hbm, ⟨7, _⟩ => ⟨S16x127x250x64, .f32⟩
  | .hbm, ⟨8, _⟩ => ⟨S16x255x250x64, .f32⟩
  | .hbm, ⟨9, _⟩ => ⟨S_, .i32⟩
  | .hbm, ⟨10, _⟩ => ⟨S255, .i32⟩
  | .hbm, ⟨11, _⟩ => ⟨S255, .i1⟩
  | .hbm, ⟨12, _⟩ => ⟨S_, .i32⟩
  | .hbm, ⟨13, _⟩ => ⟨S255, .i32⟩
  | .hbm, ⟨14, _⟩ => ⟨S255, .i32⟩
  | .hbm, ⟨15, _⟩ => ⟨S255, .i32⟩
  | .hbm, ⟨16, _⟩ => ⟨S255x1, .i32⟩
  | .hbm, ⟨17, _⟩ => ⟨S1, .i32⟩
  | .hbm, ⟨18, _⟩ => ⟨S_, .i32⟩
  | .hbm, ⟨19, _⟩ => ⟨S255x1, .i32⟩
  | .hbm, ⟨20, _⟩ => ⟨S255x1, .i1⟩
  | .hbm, ⟨21, _⟩ => ⟨S1x1, .i32⟩
  | .hbm, ⟨22, _⟩ => ⟨S255x1, .i32⟩
  | .hbm, ⟨23, _⟩ => ⟨S255x1, .i1⟩
  | .hbm, ⟨24, _⟩ => ⟨S255x1, .i1⟩
  | .hbm, ⟨25, _⟩ => ⟨S_, .i1⟩
  | .hbm, ⟨26, _⟩ => ⟨S255, .i1⟩
  | .hbm, ⟨27, _⟩ => ⟨S16x255x250x64, .f32⟩
  | .hbm, ⟨28, _⟩ => ⟨S16x255x250x64, .i1⟩
  | .hbm, ⟨29, _⟩ => ⟨S_, .f32⟩
  | .hbm, ⟨30, _⟩ => ⟨S16x255x250x64, .f32⟩
  | .hbm, ⟨31, _⟩ => ⟨S16x255x250x64, .f32⟩
  | _, _ => ⟨S16x32000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_cst : Ref sig .tc := ⟨.hbm, 29, rfl⟩
abbrev main_call1_v15 : Ref sig .tc := ⟨.hbm, 30, rfl⟩
abbrev main_v5 : Ref sig .tc := ⟨.hbm, 31, rfl⟩

abbrev nD : Nat := 1
abbrev τ : Topo := Topo.v7x

variable {F : FTy → Type} [FloatOps F]

class Facts₀ : Prop where
  shapeCasts_S16x32000x64_S16x128x250x64 : S16x32000x64.ShapeCasts S16x128x250x64
  slices_S16x32000x64_S16x31875x64_0_125_0 : S16x32000x64.Slices ![0, 125, 0] S16x31875x64
  slices_S16x32000x64_S16x125x64_0_0_0 : S16x32000x64.Slices ![0, 0, 0] S16x125x64
  concatenates_S16x31875x64_S16x125x64_S16x32000x64_d1 : Shape.Concatenates [S16x31875x64, S16x125x64] S16x32000x64 1
  slices_S16x128x250x64_S16x127x250x64_0_0_0_0 : S16x128x250x64.Slices ![0, 0, 0, 0] S16x127x250x64
  concatenates_S16x128x250x64_S16x127x250x64_S16x255x250x64_d1 : Shape.Concatenates [S16x128x250x64, S16x127x250x64] S16x255x250x64 1
  bcast_S_S255 : S_.BroadcastsInDim S255 (![] : Fin 0 → Fin S255.rank)
  bcast_S255_S255x1_0 : S255.BroadcastsInDim S255x1 (![0] : Fin 1 → Fin S255x1.rank)
  bcast_S_S255x1 : S_.BroadcastsInDim S255x1 (![] : Fin 0 → Fin S255x1.rank)
  bcast_S1_S1x1_1 : S1.BroadcastsInDim S1x1 (![1] : Fin 1 → Fin S1x1.rank)
  bcast_S1x1_S255x1_0_1 : S1x1.BroadcastsInDim S255x1 (![0, 1] : Fin 2 → Fin S255x1.rank)
  reducesTo_S255x1_S255_d1 : S255x1.ReducesTo [1] S255
  h_S_ : 0 < S_.numel
  bcast_S255_S16x255x250x64_1 : S255.BroadcastsInDim S16x255x250x64 (![1] : Fin 1 → Fin S16x255x250x64.rank)
  bcast_S_S16x255x250x64 : S_.BroadcastsInDim S16x255x250x64 (![] : Fin 0 → Fin S16x255x250x64.rank)
  gather_S16x255x250x64_S255x1_S16x255x250x64_023_1_n_n_1_1_16125064_wf : GatherDims.WF S16x255x250x64 S255x1 S16x255x250x64 [0, 2, 3] [1] [] [1] [] 1 ![16, 1, 250, 64]

variable [Facts₀]

def gather_S16x255x250x64_S255x1_S16x255x250x64_023_1_n_n_1_1_16125064 : GatherDims S16x255x250x64 S255x1 S16x255x250x64 where
  offsetDims := [0, 2, 3]
  collapsedSliceDims := [1]
  operandBatchingDims := []
  startIndicesBatchingDims := []
  startIndexMap := [1]
  indexVectorDim := 1
  sliceSizes := ![16, 1, 250, 64]
  wf := gather_S16x255x250x64_S255x1_S16x255x250x64_023_1_n_n_1_1_16125064_wf

class Facts : Prop extends Facts₀ where

variable [Facts]
-- ==== Proof.WDefs.lean ====
/-
  What one grid point of the kernel writes. The body loads its two input blocks whole — `cur`, 1000 samples of the
  padded signal, and `nxt`, the 200 samples that follow them — and stores eight rows of 250 samples into the output
  block, one store a row: row `2 k` is `cur[250 k ‥ 250 k + 250)`, row `2 k + 1` is `cur[250 k + 125 ‥ 250 k + 375)`
  for `k < 3`, and row 7 is `cur[875 ‥ 1000)` followed by `nxt[0 ‥ 125)`. `chunks` is the block those eight stores
  leave, as a function of the two input blocks; the eight rows tile the block.
-/
import proofs.«117220_j62783831933059_1_alg».proof.Proof.Gen.Kernel.Skeleton
import Idealize.ShloMosaic.Lib.Pipeline.FrameBody

set_option maxRecDepth 16384

noncomputable section

namespace Cert.Kernel.Hand

open Idealize.ShloMosaic Idealize.SL.Sem Cert.Kernel Cert.Kernel.Gen

variable {F : FTy → Type} [FloatOps F]

/-- The whole of `cur`'s buffer, as the body's first load reads it. -/
abbrev rCur : Rect S16x1000x64 := Rect.unit (s := S16x1000x64) ![0, 0, 0] S16x1000x64.size inb_S16x1000x64_S16x1000x64_0_0_0
/-- The whole of `nxt`'s buffer, as the second load reads it. -/
abbrev rNxt : Rect S16x200x64 := Rect.unit (s := S16x200x64) ![0, 0, 0] S16x200x64.size inb_S16x200x64_S16x200x64_0_0_0

/-- Row `k` of the output block: all batches, the one row, all 250 samples, all filters. -/
abbrev rRow0 : Rect S16x8x250x64 := Rect.unit (s := S16x8x250x64) ![0, 0, 0, 0] S16x1x250x64.size inb_S16x8x250x64_S16x1x250x64_0_0_0_0
abbrev rRow1 : Rect S16x8x250x64 := Rect.unit (s := S16x8x250x64) ![0, 1, 0, 0] S16x1x250x64.size inb_S16x8x250x64_S16x1x250x64_0_1_0_0
abbrev rRow2 : Rect S16x8x250x64 := Rect.unit (s := S16x8x250x64) ![0, 2, 0, 0] S16x1x250x64.size inb_S16x8x250x64_S16x1x250x64_0_2_0_0
abbrev rRow3 : Rect S16x8x250x64 := Rect.unit (s := S16x8x250x64) ![0, 3, 0, 0] S16x1x250x64.size inb_S16x8x250x64_S16x1x250x64_0_3_0_0
abbrev rRow4 : Rect S16x8x250x64 := Rect.unit (s := S16x8x250x64) ![0, 4, 0, 0] S16x1x250x64.size inb_S16x8x250x64_S16x1x250x64_0_4_0_0
abbrev rRow5 : Rect S16x8x250x64 := Rect.unit (s := S16x8x250x64) ![0, 5, 0, 0] S16x1x250x64.size inb_S16x8x250x64_S16x1x250x64_0_5_0_0
abbrev rRow6 : Rect S16x8x250x64 := Rect.unit (s := S16x8x250x64) ![0, 6, 0, 0] S16x1x250x64.size inb_S16x8x250x64_S16x1x250x64_0_6_0_0
abbrev rRow7 : Rect S16x8x250x64 := Rect.unit (s := S16x8x250x64) ![0, 7, 0, 0] S16x1x250x64.size inb_S16x8x250x64_S16x1x250x64_0_7_0_0

/-- The eight rows the body stores, the last store first, each with what it stores: a function of the loaded blocks. -/
def rows (x0 : Vec F S16x1000x64 .f32) (x1 : Vec F S16x200x64 .f32) : List (View.Piece (Elt F) S16x8x250x64 .f32) :=
  [⟨rRow7, k0_pay3 (k0_pay4 (View.ld x0 rCur)) (k0_pay5 (View.ld x1 rNxt))⟩,
   ⟨rRow6, k0_pay2 (k0_pay4 (View.ld x0 rCur))⟩,
   ⟨rRow5, k0_pay1 (k0_pay10 (View.ld x0 rCur))⟩,
   ⟨rRow4, k0_pay11 (View.ld x0 rCur)⟩,
   ⟨rRow3, k0_pay9 (View.ld x0 rCur)⟩,
   ⟨rRow2, k0_pay8 (View.ld x0 rCur)⟩,
   ⟨rRow1, k0_pay7 (View.ld x0 rCur)⟩,
   ⟨rRow0, k0_pay6 (View.ld x0 rCur)⟩]

/-- The output block after the body, from the two input blocks: the eight rows laid over one another. -/
def chunks (x0 : Vec F S16x1000x64 .f32) (x1 : Vec F S16x200x64 .f32) : Vec F S16x8x250x64 .f32 :=
  View.canon (rows x0 x1)

/-- The eight rows tile the block, so every entry of it lies in one of them. -/
theorem rows_cover (x0 : Vec F S16x1000x64 .f32) (x1 : Vec F S16x200x64 .f32) (y : S16x8x250x64.Idx) :
    ∃ pc ∈ rows x0 x1, y ∈ pc.1.set := by
  unfold rows
  exact View.cover_of_tiled (s := S16x8x250x64) _ (S16x1x250x64.size : Fin 4 → Nat) (by rfl) y

end Cert.Kernel.Hand

end
-- ==== Proof.WBody.lean ====
/-
  The kernel body's triple. Called on three whole staging buffers — `cur` holding `x0`, `nxt` holding `x1`, the
  output's holding anything — the body loads the first two whole, and for each of the eight rows loads the output's
  row (a value it never uses) and stores the row's 250 samples; it returns with the inputs' buffers as they were
  and the output's at `chunks x0 x1`, the eight stores laid over whatever was there (they cover the buffer).
-/
import proofs.«117220_j62783831933059_1_alg».proof.Proof.WDefs
import proofs.«117220_j62783831933059_1_alg».proof.Proof.Gen.Kernel.Launch
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The body on whole staging buffers: the inputs come back as they were, the output's at `chunks` of them.
    The function is its skeleton of memory operations; run symbolically, the two input buffers are read and left
    alone, and the output buffer ends as its first contents with eight row writes laid over them, each row's
    payload a function of the two whole loads. The eight rows cover the buffer, so its final contents read as
    the canonical overlay of those pieces, whatever it held before; and the pieces the run finds are, payload by
    payload, the list `rows` at the two buffers' read contents (a whole load through a view is the load of the
    view's read), which is `chunks` by definition. -/
theorem sound_kernel (c : Dev nD) (E : Set ℕ) (i : grid0.Coords)
    (a1 : Memref sig .tc .vmem S16x1000x64 .f32) (h1 : a1.IsWhole) (a2 : Memref sig .tc .vmem S16x200x64 .f32) (h2 : a2.IsWhole)
    (a3 : Memref sig .tc .vmem S16x8x250x64 .f32) (h3 : a3.IsWhole)
    (x0 : Vec F S16x1000x64 .f32) (x1 : Vec F S16x200x64 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
              ∗ owns (c : Thread nD τ) a3 fullShare (chunks x0 x1)) -∗ K ⟨⟩))
      ⊢ wp frame (wpE (defs₀ (F := F)) Variants.none c none) E (cc0__chunk_kernel i a1 h1 a2 h2 a3 h3) K := by
  simp only [cc0__chunk_kernel_eq_skeleton]; unfold cc0__chunk_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the eight stores cover the buffer: what it held before drops out
  refine Eq.trans ?_ (View.read_writes_eq_canon a3.view f2 _ (rows_cover _ _))
  -- and the stored pieces are `rows` at the inputs' read contents, each payload by unfolding
  sl_unfold_words
  unfold rows
  rfl

end Cert.Kernel.Hand

end
-- ==== Proof.WData.lean ====
/-
  The pipeline's proof data and the body obligation. When the region is entered the padded signal `xpad` (the
  signal followed by 256 rows of the pad value) sits in the array both input windows read: window 0 reads it in
  blocks of 1000 rows, block `t` at point `t`; window 1 in blocks of 200 rows, block `5 (t + 1)` at point `t`, the
  200 rows right after window 0's block. The array has 32256 rows and the grid 32 points, so no block a point
  visits runs past the array's end: each fetch fills its whole staging buffer. After the body at point `t` the
  input buffers hold their blocks and the output's holds `chunks` of the two. The two input windows hold the one
  array between them, a half share each.
-/
import proofs.«117220_j62783831933059_1_alg».proof.Proof.WBody
import proofs.«117220_j62783831933059_1_alg».proof.Proof.Gen.Kernel.Points
import Idealize.ShloMosaic.Lib.Pipeline.FrameBody
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffer contents after the host operations before the region: the constant, its conversion, the pad. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-! ## No visited block runs past the array's end -/

/-- Window 0's block at every point lies inside the array: its transfers are not cut. -/
theorem uncut0 : ∀ (t : Fin cfg0.N) a, (cfg0.win 0).clip (cfg0.grid.coords t) a = none :=
  (by decide +kernel : ∀ (t : Fin grid0.N) a, win0_0.clip (grid0.coords t) a = none)
/-- Window 1's likewise: its last block ends at row 32200 of 32256. -/
theorem uncut1 : ∀ (t : Fin cfg0.N) a, (cfg0.win 1).clip (cfg0.grid.coords t) a = none :=
  (by decide +kernel : ∀ (t : Fin grid0.N) a, win0_1.clip (grid0.coords t) a = none)

/-! ## The input blocks -/

/-- Window 0's block at point `t` as its fetch reads it off the array. -/
def curRead (c : Dev nD) (t : Fin cfg0.N) : (win0_0.xblock (grid0.coords t)).Idx → Elt F .f32 :=
  (win0_0.blk t).view.read (Elt F) (V m c main_v0)
/-- Window 1's. -/
def nxtRead (c : Dev nD) (t : Fin cfg0.N) : (win0_1.xblock (grid0.coords t)).Idx → Elt F .f32 :=
  (win0_1.blk t).view.read (Elt F) (V m c main_v0)

/-- What window 0's staging buffer holds at point `t`: the block, which fills the buffer. -/
def cur (c : Dev nD) (t : Fin cfg0.N) : Vec F S16x1000x64 .f32 :=
  win0_0.fill (grid0.coords t) (fun _ => Scalar.ofBits .f32 0#32) (curRead m c t)
/-- What window 1's holds. -/
def nxt (c : Dev nD) (t : Fin cfg0.N) : Vec F S16x200x64 .f32 :=
  win0_1.fill (grid0.coords t) (fun _ => Scalar.ofBits .f32 0#32) (nxtRead m c t)

/-! ## The proof data -/

/-- On core `c`: the arrays as the region finds them; after the body at point `t` the inputs' buffers at their
    blocks and the output's at `chunks` of them; no invariant (the body keeps nothing between points);
    nothing owed; the shared array a half share to each input window. -/
def dats (_ : Fin 1) (c : Dev nD) : Dat τ (Elt F) Unit ℕ (UR sig nD τ) ℕ cfg0 c where
  A w := V m c (Pipeline.arrRef spec0 w)
  after w t := match w with
    | ⟨0, _⟩ => cur m c t
    | ⟨1, _⟩ => nxt m c t
    | ⟨2, _⟩ => chunks (cur m c t) (nxt m c t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_cur (c : Dev nD) (t : Fin cfg0.N) : (dats m 0 c).after 0 t = cur m c t := by dsimp only [dats]
theorem after_nxt (c : Dev nD) (t : Fin cfg0.N) : (dats m 0 c).after 1 t = nxt m c t := by dsimp only [dats]
theorem after_out (c : Dev nD) (t : Fin cfg0.N) : (dats m 0 c).after 2 t = chunks (cur m c t) (nxt m c t) := by dsimp only [dats]

/-- What the body finds in window 0's buffer: the block just fetched, whatever was there before. -/
theorem before_cur (c : Dev nD) (t : Fin cfg0.N) (d) : (dats m 0 c).before 0 t d = cur m c t := by
  unfold Dat.before; rw [if_pos (fetch0_0 t)]
  exact (dats m 0 c).fetched_of_clip_none 0 t (uncut0 t) d (fun _ => Scalar.ofBits .f32 0#32)
/-- And in window 1's. -/
theorem before_nxt (c : Dev nD) (t : Fin cfg0.N) (d) : (dats m 0 c).before 1 t d = nxt m c t := by
  unfold Dat.before; rw [if_pos (fetch0_1 t)]
  exact (dats m 0 c).fetched_of_clip_none 1 t (uncut1 t) d (fun _ => Scalar.ofBits .f32 0#32)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_cur, before_nxt]
  rw [show (dats m 0 c).Φ t.succ = (dats m 0 c).Φ t.castSucc from rfl,
    show (dats m 0 c).owesAt () t.succ = (dats m 0 c).owesAt () t.castSucc from rfl,
    after_cur, after_nxt, after_out]
  iintro ⟨HΦ, Ho, ⟨%d0, H0⟩, ⟨%d1, H1⟩, ⟨%d2, H2⟩⟩
  iapply (sound_kernel c Set.univ (grid0.coords t) _ _ _ _ _ _ (cur m c t) (nxt m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.WLaunch.lean ====
/-
  The launch. @main is the pad (three host lines), the pipelined region, and one more host line that keeps the
  first 255 chunks. The region is entered holding every unscoped buffer; the padded signal's buffer is read by both
  input windows, so its full share is dealt to them by halves, and joined again when the region has ended. The last
  line then runs holding the chunk array and its own result buffer, and everything else passes by untouched.
-/
import proofs.«117220_j62783831933059_1_alg».proof.Proof.WData
import proofs.«117220_j62783831933059_1_alg».proof.Proof.Gen.Kernel.Launch
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last host line, at the contents the pad leaves. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The shared array, dealt and joined -/

/-- The buffers behind the windows' arrays are two: the padded signal's and the chunk array's. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)) := by
  unfold Pipeline.arrBufs
  exact bigSep_eq_bigSepL_of_eq [main_v0, main_v1] (by decide) (by decide) _

/-- The pipeline's arrays at contents `X` for the padded signal (both input windows) and `Y` for the chunk array: the
    signal's buffer by halves, the chunk array's whole. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0, (arr_whole0 0).set_eq_univ, (arr_whole0 2).set_eq_univ]
  rfl

/-! ## After the region: the last host line -/

/-- The core's buffers when the region has ended: the chunk array at what the write-backs left, every other
    buffer as the region found it (the kernel writes no other unscoped buffer). -/
def Wt (c : Dev nD) : Valuation τ sig (Elt F) := fun b =>
  if h : Proc.devRef .tc main_v1 = b then
    cast (congrArg (fun b' : DevRef τ sig => b'.ty.Contents (Elt F)) h) ((dats m 0 c).arrAt 2 cfg0.N)
  else V0 m c b

theorem Wt_out (c : Dev nD) : Wt m c (Proc.devRef .tc main_v1) = (dats m 0 c).arrAt 2 cfg0.N := by
  unfold Wt; rw [dif_pos rfl]; rfl

theorem Wt_ne (c : Dev nD) (b : Ref sig .tc) (hb : main_v1 ≠ b) : Wt m c (Proc.devRef .tc b) = V m c b := by
  unfold Wt; rw [dif_neg (StableHlo.devRef_ne_of_ne hb)]

/-- The buffers after the last line: its `StableHlo.after` from the region's exit. -/
abbrev Wf (c : Dev nD) (b : Ref sig .tc) : Buf (Elt F) ((c : Thread nD τ).loc b) :=
  StableHlo.after hostOps1 (Wt m c) (Proc.devRef .tc b)

/-- The last line writes only its result: every other buffer is as the region left it. -/
theorem Wf_ne (c : Dev nD) (b : Ref sig .tc) (hb : b ≠ main_v2) : Wf m c b = Wt m c (Proc.devRef .tc b) :=
  StableHlo.after_of_forall_not_mem (b := Proc.devRef .tc b) _ _ (fun op hop => by
    simp only [hostOps1, List.mem_singleton] at hop
    subst hop
    rw [StableHlo.unary_writes, Finset.mem_singleton]
    exact StableHlo.devRef_ne_of_ne hb)

/-- Its result: the first 255 chunks of the chunk array. -/
theorem Wf_result (c : Dev nD) : Wf m c main_v2
    = extractStridedSlice S16x255x250x64 ![0, 0, 0, 0] ((dats m 0 c).arrAt 2 cfg0.N : Vec F S16x256x250x64 .f32)
        slices_S16x256x250x64_S16x255x250x64_0_0_0_0 := by
  show StableHlo.after hostOps1 (Wt m c) (Proc.devRef .tc main_v2) = _
  simp only [hostOps1, StableHlo.after_cons, StableHlo.after_nil]
  rw [StableHlo.unary_result', Wt_out]

/-- An input array is never written: it ends as the region found it. -/
theorem arrAt_in0 (c : Dev nD) (n : Nat) : (dats m 0 c).arrAt 0 n = V m c main_v0 :=
  ((dats (F := F) m 0 c).arrAt_in (0 : Fin 3) rfl n).trans (A_eq m c 0)
theorem arrAt_in1 (c : Dev nD) (n : Nat) : (dats m 0 c).arrAt 1 n = V m c main_v0 :=
  ((dats (F := F) m 0 c).arrAt_in (1 : Fin 3) rfl n).trans (A_eq m c 1)

/-- The region is entered with the padded signal's buffer dealt by halves to the two input windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-- Every unscoped buffer held at a valuation, as the two array buffers and the four that bypass the region. -/
theorem held_all (c : Dev nD) (W : Valuation τ sig (Elt F)) :
    (StableHlo.held (c.tc : Thread nD τ) (Pipeline.ucRefs τ sig) W : sProp 𝕄)
      = iprop(((((c : Thread nD τ).loc main_v0) ↦{fullShare} W (Proc.devRef .tc main_v0)) ∗ (((c : Thread nD τ).loc main_v1) ↦{fullShare} W (Proc.devRef .tc main_v1)))
          ∗ Pipeline.unscopedRest (Ix := Unit) (Name := ℕ) (U := UR sig nD τ) (Lvl := ℕ) spec0 c (fun b => W (Proc.devRef .tc b))) := by
  rw [← Pipeline.unscopedBufs_held (Ix := Unit) (Name := ℕ) (U := UR sig nD τ) (Lvl := ℕ) c W,
    Pipeline.unscopedBufs_split₀ cfgs (0 : Fin 1) winFacts₀0.arr_unscoped c (fun b => W (Proc.devRef .tc b)), arrBufs_eq]

/-- The bypassing buffers at the region's exit are as the region found them. -/
theorem rest_Wt (c : Dev nD) :
    (Pipeline.unscopedRest (Ix := Unit) (Name := ℕ) (U := UR sig nD τ) (Lvl := ℕ) spec0 c (fun b => Wt m c (Proc.devRef .tc b)) : sProp 𝕄)
      = Pipeline.unscopedRest spec0 c (V m c) := by
  rw [unscopedRest0_eq, unscopedRest0_eq, Wt_ne m c main_arg0 (by decide), Wt_ne m c main_c (by decide),
    Wt_ne m c main_call0_v0 (by decide), Wt_ne m c main_v2 (by decide)]

/-- The last line, run from the region's exit: the halves of the padded signal's buffer are joined, the line runs
    holding every unscoped buffer, and the halves are dealt again. -/
theorem htail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (Wf m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c.tc : Thread nD τ) none) Set.univ
          (Pipeline.chain [StableHlo.seq hostOps1]) Q' := by
  have hW : (StableHlo.held (c.tc : Thread nD τ) (Pipeline.ucRefs τ sig) (Wt m c) : sProp 𝕄)
      = iprop(((((c : Thread nD τ).loc main_v0) ↦{fullShare} V m c main_v0) ∗ (((c : Thread nD τ).loc main_v1) ↦{fullShare} (dats m 0 c).arrAt 2 cfg0.N))
          ∗ Pipeline.unscopedRest spec0 c (V m c)) := by
    rw [held_all, rest_Wt, Wt_ne m c main_v0 (by decide), Wt_out]
  have hW' : (StableHlo.held (c.tc : Thread nD τ) (Pipeline.ucRefs τ sig) (StableHlo.after hostOps1 (Wt m c)) : sProp 𝕄)
      = iprop(((((c : Thread nD τ).loc main_v0) ↦{fullShare} V m c main_v0) ∗ (((c : Thread nD τ).loc main_v1) ↦{fullShare} (dats m 0 c).arrAt 2 cfg0.N))
          ∗ Pipeline.unscopedRest spec0 c (Wf m c)) := by
    rw [held_all, show StableHlo.after hostOps1 (Wt m c) (Proc.devRef .tc main_v0) = V m c main_v0 from
        (Wf_ne m c main_v0 (by decide)).trans (Wt_ne m c main_v0 (by decide)),
      show StableHlo.after hostOps1 (Wt m c) (Proc.devRef .tc main_v1) = (dats m 0 c).arrAt 2 cfg0.N from
        (Wf_ne m c main_v1 (by decide)).trans (Wt_out m c)]
  rw [arrays_eq, arrAt_in0, arrAt_in1, Pipeline.chain_cons, Pipeline.chain_nil]
  -- once the line has run: the halves dealt again, the arrays and the bypassing buffers handed on
  have hcont : iprop((iprop(((((c : Thread nD τ).loc main_v0) ↦{fullShare.left} V m c main_v0) ∗ (((c : Thread nD τ).loc main_v0) ↦{fullShare.right} V m c main_v0)
            ∗ (((c : Thread nD τ).loc main_v1) ↦{fullShare} (dats m 0 c).arrAt 2 cfg0.N))
          ∗ Pipeline.unscopedRest (Ix := Unit) (Name := ℕ) (U := UR sig nD τ) (Lvl := ℕ) spec0 c (Wf m c)) -∗ Q' ⟨⟩))
      ⊢ iprop((boundary (c.tc : Thread nD τ) ∗ (StableHlo.held (c.tc : Thread nD τ) (Pipeline.ucRefs τ sig) (StableHlo.after hostOps1 (Wt m c)) : sProp 𝕄))
          -∗ wp frame (wpE (defs (F := F)) (Variants.lift Variants.none) (c.tc : Thread nD τ) none) Set.univ (pure ⟨⟩) Q') := by
    rw [hW', wp_pure]
    iintro Hk ⟨-, ⟨⟨A01, A2⟩, HZ⟩⟩
    ihave A01 := (pointsTo_share (PosShare.mem_left_op_right fullShare)).1 $$ A01
    icases A01 with ⟨A0, A1⟩
    imodintro
    iapply Hk
    isplitl [A0 A1 A2]
    · isplitl [A0]; · iexact A0
      isplitl [A1]; · iexact A1
      iexact A2
    iexact HZ
  iintro ⟨Hk, Hb, ⟨A0, A1, A2⟩, HZ⟩
  ihave A01 := (pointsTo_share (PosShare.mem_left_op_right fullShare)).2 $$ [A0 A1]
  · isplitl [A0]; · iexact A0
    iexact A1
  ihave Hc := hcont $$ Hk
  iapply (StableHlo.wp_seq (Variants.lift Variants.none) none Set.univ c (Pipeline.ucRefs τ sig) (fun _ => pure ⟨⟩) hostOps1
    (fun op h => Pipeline.sub_ucRefs op ((List.forall_iff_forall_mem.mp hostOps1_sub) op h))
    (fun op h => (List.forall_iff_forall_mem.mp hostOps1_fresh) op h) (Wt m c)) $$ [Hb A01 A2 HZ]
  · rw [hW]
    isplitl [Hb]; · iexact Hb
    isplitl [A01 A2]
    · isplitl [A01]; · iexact A01
      iexact A2
    iexact HZ
  iexact Hc

/-- No host line before the region writes the signal's buffer: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The run -/

/-- At the compiled mesh, from any memory whose semaphore counters are zero: every weakly fair execution of @main
    terminates, the result buffer ends at the first 255 chunks of what the region's write-backs left in the chunk
    array, and the signal is what it was. -/
theorem run_region :
    θ_run (defs (F := F)) (onTc (τ := τ) (main (F := F))) ⟨m, fun _ => 0, ρ⟩ (fun r => ∀ c : Dev nD,
      r.2.mem ((c.tc : Thread nD τ).loc main_v2)
          = extractStridedSlice S16x255x250x64 ![0, 0, 0, 0] ((dats m 0 c).arrAt 2 cfg0.N : Vec F S16x256x250x64 .f32)
              slices_S16x256x250x64_S16x255x250x64_0_0_0_0
      ∧ r.2.mem ((c.tc : Thread nD τ).loc main_arg0) = m ((c.tc : Thread nD τ).loc main_arg0)) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m)
    (hsplit := hsplit m) (hpf := fun _ k => k.elim0)
    (X := fun _ => iprop(emp)) (Y := fun _ => iprop(emp))
    (Z := fun c => Pipeline.unscopedRest spec0 c (V m c)) (Z' := fun c => Pipeline.unscopedRest spec0 c (Wf m c))
    (hX := fun c => by rw [Pipeline.unscopedRestP_none]; iintro H; isplitr; · iempintro
                       iexact H)
    (hin := fun c => by iintro -; iempintro)
    (hout := fun c => by rw [scopedRest0_eq]; iintro -; isplitr <;> iempintro)
    (htail := htail m)
    (QY := fun c s => ∀ b ∈ Pipeline.restRefs sig spec0, s.mem ((c.tc : Thread nD τ).loc b) = Wf m c b)
    (hY := fun c s' => by
      iintro ⟨-, HU, HSI⟩
      unfold Pipeline.unscopedRest
      imodintro
      iapply (pointsTo_read_all (Pipeline.restRefs sig spec0) (fun b => (c.tc : Thread nD τ).loc b) (Wf m c) s')
      isplitl [HU] <;> iassumption)
    (hQ := fun s h c => ⟨((h c).2.2 main_v2 (Pipeline.mem_restRefs_of main_v2 (by decide) (by decide))).trans (Wf_result m c),
      ((h c).2.2 main_arg0 (Pipeline.mem_restRefs_of main_arg0 (by decide) (by decide))).trans
        ((Wf_ne m c main_arg0 (by decide)).trans ((Wt_ne m c main_arg0 (by decide)).trans (V_arg0 m c)))⟩)

end Cert.Kernel.Hand

end
-- ==== Proof.KDefs.lean ====
/-
  What one grid point of the kernel writes. The body loads its two input blocks whole — `cur`, 1000 samples of the
  padded signal, and `nxt`, the 200 samples that follow them — and stores eight rows of 250 samples into the output
  block, one store a row: row `2 k` is `cur[250 k ‥ 250 k + 250)`, row `2 k + 1` is `cur[250 k + 125 ‥ 250 k + 375)`
  for `k < 3`, and row 7 is `cur[875 ‥ 1000)` followed by `nxt[0 ‥ 125)`. `chunks` is the block those eight stores
  leave, as a function of the two input blocks; the eight rows tile the block.
-/
import proofs.«117220_j62783831933059_1_alg».proof.Proof.Gen.KernelIdeal.Skeleton
import Idealize.ShloMosaic.Lib.Pipeline.FrameBody

set_option maxRecDepth 16384

noncomputable section

namespace Cert.KernelIdeal.Hand

open Idealize.ShloMosaic Idealize.SL.Sem Cert.KernelIdeal Cert.KernelIdeal.Gen

variable {F : FTy → Type} [FloatOps F]

/-- The whole of `cur`'s buffer, as the body's first load reads it. -/
abbrev rCur : Rect S16x1000x64 := Rect.unit (s := S16x1000x64) ![0, 0, 0] S16x1000x64.size inb_S16x1000x64_S16x1000x64_0_0_0
/-- The whole of `nxt`'s buffer, as the second load reads it. -/
abbrev rNxt : Rect S16x200x64 := Rect.unit (s := S16x200x64) ![0, 0, 0] S16x200x64.size inb_S16x200x64_S16x200x64_0_0_0

/-- Row `k` of the output block: all batches, the one row, all 250 samples, all filters. -/
abbrev rRow0 : Rect S16x8x250x64 := Rect.unit (s := S16x8x250x64) ![0, 0, 0, 0] S16x1x250x64.size inb_S16x8x250x64_S16x1x250x64_0_0_0_0
abbrev rRow1 : Rect S16x8x250x64 := Rect.unit (s := S16x8x250x64) ![0, 1, 0, 0] S16x1x250x64.size inb_S16x8x250x64_S16x1x250x64_0_1_0_0
abbrev rRow2 : Rect S16x8x250x64 := Rect.unit (s := S16x8x250x64) ![0, 2, 0, 0] S16x1x250x64.size inb_S16x8x250x64_S16x1x250x64_0_2_0_0
abbrev rRow3 : Rect S16x8x250x64 := Rect.unit (s := S16x8x250x64) ![0, 3, 0, 0] S16x1x250x64.size inb_S16x8x250x64_S16x1x250x64_0_3_0_0
abbrev rRow4 : Rect S16x8x250x64 := Rect.unit (s := S16x8x250x64) ![0, 4, 0, 0] S16x1x250x64.size inb_S16x8x250x64_S16x1x250x64_0_4_0_0
abbrev rRow5 : Rect S16x8x250x64 := Rect.unit (s := S16x8x250x64) ![0, 5, 0, 0] S16x1x250x64.size inb_S16x8x250x64_S16x1x250x64_0_5_0_0
abbrev rRow6 : Rect S16x8x250x64 := Rect.unit (s := S16x8x250x64) ![0, 6, 0, 0] S16x1x250x64.size inb_S16x8x250x64_S16x1x250x64_0_6_0_0
abbrev rRow7 : Rect S16x8x250x64 := Rect.unit (s := S16x8x250x64) ![0, 7, 0, 0] S16x1x250x64.size inb_S16x8x250x64_S16x1x250x64_0_7_0_0

/-- The eight rows the body stores, the last store first, each with what it stores: a function of the loaded blocks. -/
def rows (x0 : Vec F S16x1000x64 .f32) (x1 : Vec F S16x200x64 .f32) : List (View.Piece (Elt F) S16x8x250x64 .f32) :=
  [⟨rRow7, k0_pay3 (k0_pay4 (View.ld x0 rCur)) (k0_pay5 (View.ld x1 rNxt))⟩,
   ⟨rRow6, k0_pay2 (k0_pay4 (View.ld x0 rCur))⟩,
   ⟨rRow5, k0_pay1 (k0_pay10 (View.ld x0 rCur))⟩,
   ⟨rRow4, k0_pay11 (View.ld x0 rCur)⟩,
   ⟨rRow3, k0_pay9 (View.ld x0 rCur)⟩,
   ⟨rRow2, k0_pay8 (View.ld x0 rCur)⟩,
   ⟨rRow1, k0_pay7 (View.ld x0 rCur)⟩,
   ⟨rRow0, k0_pay6 (View.ld x0 rCur)⟩]

/-- The output block after the body, from the two input blocks: the eight rows laid over one another. -/
def chunks (x0 : Vec F S16x1000x64 .f32) (x1 : Vec F S16x200x64 .f32) : Vec F S16x8x250x64 .f32 :=
  View.canon (rows x0 x1)

/-- The eight rows tile the block, so every entry of it lies in one of them. -/
theorem rows_cover (x0 : Vec F S16x1000x64 .f32) (x1 : Vec F S16x200x64 .f32) (y : S16x8x250x64.Idx) :
    ∃ pc ∈ rows x0 x1, y ∈ pc.1.set := by
  unfold rows
  exact View.cover_of_tiled (s := S16x8x250x64) _ (S16x1x250x64.size : Fin 4 → Nat) (by rfl) y

end Cert.KernelIdeal.Hand

end
-- ==== Proof.KBody.lean ====
/-
  The kernel body's triple. Called on three whole staging buffers — `cur` holding `x0`, `nxt` holding `x1`, the
  output's holding anything — the body loads the first two whole, and for each of the eight rows loads the output's
  row (a value it never uses) and stores the row's 250 samples; it returns with the inputs' buffers as they were
  and the output's at `chunks x0 x1`, the eight stores laid over whatever was there (they cover the buffer).
-/
import proofs.«117220_j62783831933059_1_alg».proof.Proof.KDefs
import proofs.«117220_j62783831933059_1_alg».proof.Proof.Gen.KernelIdeal.Launch
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The body on whole staging buffers: the inputs come back as they were, the output's at `chunks` of them.
    The function is its skeleton of memory operations; run symbolically, the two input buffers are read and left
    alone, and the output buffer ends as its first contents with eight row writes laid over them, each row's
    payload a function of the two whole loads. The eight rows cover the buffer, so its final contents read as
    the canonical overlay of those pieces, whatever it held before; and the pieces the run finds are, payload by
    payload, the list `rows` at the two buffers' read contents (a whole load through a view is the load of the
    view's read), which is `chunks` by definition. -/
theorem sound_kernel (c : Dev nD) (E : Set ℕ) (i : grid0.Coords)
    (a1 : Memref sig .tc .vmem S16x1000x64 .f32) (h1 : a1.IsWhole) (a2 : Memref sig .tc .vmem S16x200x64 .f32) (h2 : a2.IsWhole)
    (a3 : Memref sig .tc .vmem S16x8x250x64 .f32) (h3 : a3.IsWhole)
    (x0 : Vec F S16x1000x64 .f32) (x1 : Vec F S16x200x64 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
              ∗ owns (c : Thread nD τ) a3 fullShare (chunks x0 x1)) -∗ K ⟨⟩))
      ⊢ wp frame (wpE (defs₀ (F := F)) Variants.none c none) E (cc0__chunk_kernel i a1 h1 a2 h2 a3 h3) K := by
  simp only [cc0__chunk_kernel_eq_skeleton]; unfold cc0__chunk_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the eight stores cover the buffer: what it held before drops out
  refine Eq.trans ?_ (View.read_writes_eq_canon a3.view f2 _ (rows_cover _ _))
  -- and the stored pieces are `rows` at the inputs' read contents, each payload by unfolding
  sl_unfold_words
  unfold rows
  rfl

end Cert.KernelIdeal.Hand

end
-- ==== Proof.KData.lean ====
/-
  The pipeline's proof data and the body obligation. When the region is entered the padded signal `xpad` (the
  signal followed by 256 rows of the pad value) sits in the array both input windows read: window 0 reads it in
  blocks of 1000 rows, block `t` at point `t`; window 1 in blocks of 200 rows, block `5 (t + 1)` at point `t`, the
  200 rows right after window 0's block. The array has 32256 rows and the grid 32 points, so no block a point
  visits runs past the array's end: each fetch fills its whole staging buffer. After the body at point `t` the
  input buffers hold their blocks and the output's holds `chunks` of the two. The two input windows hold the one
  array between them, a half share each.
-/
import proofs.«117220_j62783831933059_1_alg».proof.Proof.KBody
import proofs.«117220_j62783831933059_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffer contents after the host operations before the region: the constant, its conversion, the pad. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-! ## No visited block runs past the array's end -/

/-- Window 0's block at every point lies inside the array: its transfers are not cut. -/
theorem uncut0 : ∀ (t : Fin cfg0.N) a, (cfg0.win 0).clip (cfg0.grid.coords t) a = none :=
  (by decide +kernel : ∀ (t : Fin grid0.N) a, win0_0.clip (grid0.coords t) a = none)
/-- Window 1's likewise: its last block ends at row 32200 of 32256. -/
theorem uncut1 : ∀ (t : Fin cfg0.N) a, (cfg0.win 1).clip (cfg0.grid.coords t) a = none :=
  (by decide +kernel : ∀ (t : Fin grid0.N) a, win0_1.clip (grid0.coords t) a = none)

/-! ## The input blocks -/

/-- Window 0's block at point `t` as its fetch reads it off the array. -/
def curRead (c : Dev nD) (t : Fin cfg0.N) : (win0_0.xblock (grid0.coords t)).Idx → Elt F .f32 :=
  (win0_0.blk t).view.read (Elt F) (V m c main_v0)
/-- Window 1's. -/
def nxtRead (c : Dev nD) (t : Fin cfg0.N) : (win0_1.xblock (grid0.coords t)).Idx → Elt F .f32 :=
  (win0_1.blk t).view.read (Elt F) (V m c main_v0)

/-- What window 0's staging buffer holds at point `t`: the block, which fills the buffer. -/
def cur (c : Dev nD) (t : Fin cfg0.N) : Vec F S16x1000x64 .f32 :=
  win0_0.fill (grid0.coords t) (fun _ => Scalar.ofBits .f32 0#32) (curRead m c t)
/-- What window 1's holds. -/
def nxt (c : Dev nD) (t : Fin cfg0.N) : Vec F S16x200x64 .f32 :=
  win0_1.fill (grid0.coords t) (fun _ => Scalar.ofBits .f32 0#32) (nxtRead m c t)

/-! ## The proof data -/

/-- On core `c`: the arrays as the region finds them; after the body at point `t` the inputs' buffers at their
    blocks and the output's at `chunks` of them; no invariant (the body keeps nothing between points);
    nothing owed; the shared array a half share to each input window. -/
def dats (_ : Fin 1) (c : Dev nD) : Dat τ (Elt F) Unit ℕ (UR sig nD τ) ℕ cfg0 c where
  A w := V m c (Pipeline.arrRef spec0 w)
  after w t := match w with
    | ⟨0, _⟩ => cur m c t
    | ⟨1, _⟩ => nxt m c t
    | ⟨2, _⟩ => chunks (cur m c t) (nxt m c t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_cur (c : Dev nD) (t : Fin cfg0.N) : (dats m 0 c).after 0 t = cur m c t := by dsimp only [dats]
theorem after_nxt (c : Dev nD) (t : Fin cfg0.N) : (dats m 0 c).after 1 t = nxt m c t := by dsimp only [dats]
theorem after_out (c : Dev nD) (t : Fin cfg0.N) : (dats m 0 c).after 2 t = chunks (cur m c t) (nxt m c t) := by dsimp only [dats]

/-- What the body finds in window 0's buffer: the block just fetched, whatever was there before. -/
theorem before_cur (c : Dev nD) (t : Fin cfg0.N) (d) : (dats m 0 c).before 0 t d = cur m c t := by
  unfold Dat.before; rw [if_pos (fetch0_0 t)]
  exact (dats m 0 c).fetched_of_clip_none 0 t (uncut0 t) d (fun _ => Scalar.ofBits .f32 0#32)
/-- And in window 1's. -/
theorem before_nxt (c : Dev nD) (t : Fin cfg0.N) (d) : (dats m 0 c).before 1 t d = nxt m c t := by
  unfold Dat.before; rw [if_pos (fetch0_1 t)]
  exact (dats m 0 c).fetched_of_clip_none 1 t (uncut1 t) d (fun _ => Scalar.ofBits .f32 0#32)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_cur, before_nxt]
  rw [show (dats m 0 c).Φ t.succ = (dats m 0 c).Φ t.castSucc from rfl,
    show (dats m 0 c).owesAt () t.succ = (dats m 0 c).owesAt () t.castSucc from rfl,
    after_cur, after_nxt, after_out]
  iintro ⟨HΦ, Ho, ⟨%d0, H0⟩, ⟨%d1, H1⟩, ⟨%d2, H2⟩⟩
  iapply (sound_kernel c Set.univ (grid0.coords t) _ _ _ _ _ _ (cur m c t) (nxt m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KLaunch.lean ====
/-
  The launch. @main is the pad (three host lines), the pipelined region, and one more host line that keeps the
  first 255 chunks. The region is entered holding every unscoped buffer; the padded signal's buffer is read by both
  input windows, so its full share is dealt to them by halves, and joined again when the region has ended. The last
  line then runs holding the chunk array and its own result buffer, and everything else passes by untouched.
-/
import proofs.«117220_j62783831933059_1_alg».proof.Proof.KData
import proofs.«117220_j62783831933059_1_alg».proof.Proof.Gen.KernelIdeal.Launch
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last host line, at the contents the pad leaves. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [hostOps0, hostOps0_1] [hostOps1]
    (by simp only [List.Forall]; exact ⟨hostOps0_sub, hostOps0_1_sub⟩)
    (by simp only [List.Forall]; exact ⟨hostOps0_fresh, hostOps0_1_fresh⟩) main_chain

/-! ## The shared array, dealt and joined -/

/-- The buffers behind the windows' arrays are two: the padded signal's and the chunk array's. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)) := by
  unfold Pipeline.arrBufs
  exact bigSep_eq_bigSepL_of_eq [main_v0, main_v1] (by decide) (by decide) _

/-- The pipeline's arrays at contents `X` for the padded signal (both input windows) and `Y` for the chunk array: the
    signal's buffer by halves, the chunk array's whole. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W0, (arr_whole0 0).set_eq_univ, (arr_whole0 2).set_eq_univ]
  rfl

/-! ## After the region: the last host line -/

/-- The core's buffers when the region has ended: the chunk array at what the write-backs left, every other
    buffer as the region found it (the kernel writes no other unscoped buffer). -/
def Wt (c : Dev nD) : Valuation τ sig (Elt F) := fun b =>
  if h : Proc.devRef .tc main_v1 = b then
    cast (congrArg (fun b' : DevRef τ sig => b'.ty.Contents (Elt F)) h) ((dats m 0 c).arrAt 2 cfg0.N)
  else V0 m c b

theorem Wt_out (c : Dev nD) : Wt m c (Proc.devRef .tc main_v1) = (dats m 0 c).arrAt 2 cfg0.N := by
  unfold Wt; rw [dif_pos rfl]; rfl

theorem Wt_ne (c : Dev nD) (b : Ref sig .tc) (hb : main_v1 ≠ b) : Wt m c (Proc.devRef .tc b) = V m c b := by
  unfold Wt; rw [dif_neg (StableHlo.devRef_ne_of_ne hb)]

/-- The buffers after the last line: its `StableHlo.after` from the region's exit. -/
abbrev Wf (c : Dev nD) (b : Ref sig .tc) : Buf (Elt F) ((c : Thread nD τ).loc b) :=
  StableHlo.after hostOps1 (Wt m c) (Proc.devRef .tc b)

/-- The last line writes only its result: every other buffer is as the region left it. -/
theorem Wf_ne (c : Dev nD) (b : Ref sig .tc) (hb : b ≠ main_v2) : Wf m c b = Wt m c (Proc.devRef .tc b) :=
  StableHlo.after_of_forall_not_mem (b := Proc.devRef .tc b) _ _ (fun op hop => by
    simp only [hostOps1, List.mem_singleton] at hop
    subst hop
    rw [StableHlo.unary_writes, Finset.mem_singleton]
    exact StableHlo.devRef_ne_of_ne hb)

/-- Its result: the first 255 chunks of the chunk array. -/
theorem Wf_result (c : Dev nD) : Wf m c main_v2
    = extractStridedSlice S16x255x250x64 ![0, 0, 0, 0] ((dats m 0 c).arrAt 2 cfg0.N : Vec F S16x256x250x64 .f32)
        slices_S16x256x250x64_S16x255x250x64_0_0_0_0 := by
  show StableHlo.after hostOps1 (Wt m c) (Proc.devRef .tc main_v2) = _
  simp only [hostOps1, StableHlo.after_cons, StableHlo.after_nil]
  rw [StableHlo.unary_result', Wt_out]

/-- An input array is never written: it ends as the region found it. -/
theorem arrAt_in0 (c : Dev nD) (n : Nat) : (dats m 0 c).arrAt 0 n = V m c main_v0 :=
  ((dats (F := F) m 0 c).arrAt_in (0 : Fin 3) rfl n).trans (A_eq m c 0)
theorem arrAt_in1 (c : Dev nD) (n : Nat) : (dats m 0 c).arrAt 1 n = V m c main_v0 :=
  ((dats (F := F) m 0 c).arrAt_in (1 : Fin 3) rfl n).trans (A_eq m c 1)

/-- The region is entered with the padded signal's buffer dealt by halves to the two input windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-- Every unscoped buffer held at a valuation, as the two array buffers and the four that bypass the region. -/
theorem held_all (c : Dev nD) (W : Valuation τ sig (Elt F)) :
    (StableHlo.held (c.tc : Thread nD τ) (Pipeline.ucRefs τ sig) W : sProp 𝕄)
      = iprop(((((c : Thread nD τ).loc main_v0) ↦{fullShare} W (Proc.devRef .tc main_v0)) ∗ (((c : Thread nD τ).loc main_v1) ↦{fullShare} W (Proc.devRef .tc main_v1)))
          ∗ Pipeline.unscopedRest (Ix := Unit) (Name := ℕ) (U := UR sig nD τ) (Lvl := ℕ) spec0 c (fun b => W (Proc.devRef .tc b))) := by
  rw [← Pipeline.unscopedBufs_held (Ix := Unit) (Name := ℕ) (U := UR sig nD τ) (Lvl := ℕ) c W,
    Pipeline.unscopedBufs_split₀ cfgs (0 : Fin 1) winFacts₀0.arr_unscoped c (fun b => W (Proc.devRef .tc b)), arrBufs_eq]

/-- The bypassing buffers at the region's exit are as the region found them. -/
theorem rest_Wt (c : Dev nD) :
    (Pipeline.unscopedRest (Ix := Unit) (Name := ℕ) (U := UR sig nD τ) (Lvl := ℕ) spec0 c (fun b => Wt m c (Proc.devRef .tc b)) : sProp 𝕄)
      = Pipeline.unscopedRest spec0 c (V m c) := by
  rw [unscopedRest0_eq, unscopedRest0_eq, Wt_ne m c main_arg0 (by decide), Wt_ne m c main_c (by decide),
    Wt_ne m c main_call0_v0 (by decide), Wt_ne m c main_v2 (by decide)]

/-- The last line, run from the region's exit: the halves of the padded signal's buffer are joined, the line runs
    holding every unscoped buffer, and the halves are dealt again. -/
theorem htail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (Wf m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c.tc : Thread nD τ) none) Set.univ
          (Pipeline.chain [StableHlo.seq hostOps1]) Q' := by
  have hW : (StableHlo.held (c.tc : Thread nD τ) (Pipeline.ucRefs τ sig) (Wt m c) : sProp 𝕄)
      = iprop(((((c : Thread nD τ).loc main_v0) ↦{fullShare} V m c main_v0) ∗ (((c : Thread nD τ).loc main_v1) ↦{fullShare} (dats m 0 c).arrAt 2 cfg0.N))
          ∗ Pipeline.unscopedRest spec0 c (V m c)) := by
    rw [held_all, rest_Wt, Wt_ne m c main_v0 (by decide), Wt_out]
  have hW' : (StableHlo.held (c.tc : Thread nD τ) (Pipeline.ucRefs τ sig) (StableHlo.after hostOps1 (Wt m c)) : sProp 𝕄)
      = iprop(((((c : Thread nD τ).loc main_v0) ↦{fullShare} V m c main_v0) ∗ (((c : Thread nD τ).loc main_v1) ↦{fullShare} (dats m 0 c).arrAt 2 cfg0.N))
          ∗ Pipeline.unscopedRest spec0 c (Wf m c)) := by
    rw [held_all, show StableHlo.after hostOps1 (Wt m c) (Proc.devRef .tc main_v0) = V m c main_v0 from
        (Wf_ne m c main_v0 (by decide)).trans (Wt_ne m c main_v0 (by decide)),
      show StableHlo.after hostOps1 (Wt m c) (Proc.devRef .tc main_v1) = (dats m 0 c).arrAt 2 cfg0.N from
        (Wf_ne m c main_v1 (by decide)).trans (Wt_out m c)]
  rw [arrays_eq, arrAt_in0, arrAt_in1, Pipeline.chain_cons, Pipeline.chain_nil]
  -- once the line has run: the halves dealt again, the arrays and the bypassing buffers handed on
  have hcont : iprop((iprop(((((c : Thread nD τ).loc main_v0) ↦{fullShare.left} V m c main_v0) ∗ (((c : Thread nD τ).loc main_v0) ↦{fullShare.right} V m c main_v0)
            ∗ (((c : Thread nD τ).loc main_v1) ↦{fullShare} (dats m 0 c).arrAt 2 cfg0.N))
          ∗ Pipeline.unscopedRest (Ix := Unit) (Name := ℕ) (U := UR sig nD τ) (Lvl := ℕ) spec0 c (Wf m c)) -∗ Q' ⟨⟩))
      ⊢ iprop((boundary (c.tc : Thread nD τ) ∗ (StableHlo.held (c.tc : Thread nD τ) (Pipeline.ucRefs τ sig) (StableHlo.after hostOps1 (Wt m c)) : sProp 𝕄))
          -∗ wp frame (wpE (defs (F := F)) (Variants.lift Variants.none) (c.tc : Thread nD τ) none) Set.univ (pure ⟨⟩) Q') := by
    rw [hW', wp_pure]
    iintro Hk ⟨-, ⟨⟨A01, A2⟩, HZ⟩⟩
    ihave A01 := (pointsTo_share (PosShare.mem_left_op_right fullShare)).1 $$ A01
    icases A01 with ⟨A0, A1⟩
    imodintro
    iapply Hk
    isplitl [A0 A1 A2]
    · isplitl [A0]; · iexact A0
      isplitl [A1]; · iexact A1
      iexact A2
    iexact HZ
  iintro ⟨Hk, Hb, ⟨A0, A1, A2⟩, HZ⟩
  ihave A01 := (pointsTo_share (PosShare.mem_left_op_right fullShare)).2 $$ [A0 A1]
  · isplitl [A0]; · iexact A0
    iexact A1
  ihave Hc := hcont $$ Hk
  iapply (StableHlo.wp_seq (Variants.lift Variants.none) none Set.univ c (Pipeline.ucRefs τ sig) (fun _ => pure ⟨⟩) hostOps1
    (fun op h => Pipeline.sub_ucRefs op ((List.forall_iff_forall_mem.mp hostOps1_sub) op h))
    (fun op h => (List.forall_iff_forall_mem.mp hostOps1_fresh) op h) (Wt m c)) $$ [Hb A01 A2 HZ]
  · rw [hW]
    isplitl [Hb]; · iexact Hb
    isplitl [A01 A2]
    · isplitl [A01]; · iexact A01
      iexact A2
    iexact HZ
  iexact Hc

/-- No host line before the region writes the signal's buffer: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, StableHlo.TRef.unary, StableHlo.TRef.binary, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The run -/

/-- At the compiled mesh, from any memory whose semaphore counters are zero: every weakly fair execution of @main
    terminates, the result buffer ends at the first 255 chunks of what the region's write-backs left in the chunk
    array, and the signal is what it was. -/
theorem run_region :
    θ_run (defs (F := F)) (onTc (τ := τ) (main (F := F))) ⟨m, fun _ => 0, ρ⟩ (fun r => ∀ c : Dev nD,
      r.2.mem ((c.tc : Thread nD τ).loc main_v2)
          = extractStridedSlice S16x255x250x64 ![0, 0, 0, 0] ((dats m 0 c).arrAt 2 cfg0.N : Vec F S16x256x250x64 .f32)
              slices_S16x256x250x64_S16x255x250x64_0_0_0_0
      ∧ r.2.mem ((c.tc : Thread nD τ).loc main_arg0) = m ((c.tc : Thread nD τ).loc main_arg0)) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m)
    (hsplit := hsplit m) (hpf := fun _ k => k.elim0)
    (X := fun _ => iprop(emp)) (Y := fun _ => iprop(emp))
    (Z := fun c => Pipeline.unscopedRest spec0 c (V m c)) (Z' := fun c => Pipeline.unscopedRest spec0 c (Wf m c))
    (hX := fun c => by rw [Pipeline.unscopedRestP_none]; iintro H; isplitr; · iempintro
                       iexact H)
    (hin := fun c => by iintro -; iempintro)
    (hout := fun c => by rw [scopedRest0_eq]; iintro -; isplitr <;> iempintro)
    (htail := htail m)
    (QY := fun c s => ∀ b ∈ Pipeline.restRefs sig spec0, s.mem ((c.tc : Thread nD τ).loc b) = Wf m c b)
    (hY := fun c s' => by
      iintro ⟨-, HU, HSI⟩
      unfold Pipeline.unscopedRest
      imodintro
      iapply (pointsTo_read_all (Pipeline.restRefs sig spec0) (fun b => (c.tc : Thread nD τ).loc b) (Wf m c) s')
      isplitl [HU] <;> iassumption)
    (hQ := fun s h c => ⟨((h c).2.2 main_v2 (Pipeline.mem_restRefs_of main_v2 (by decide) (by decide))).trans (Wf_result m c),
      ((h c).2.2 main_arg0 (Pipeline.mem_restRefs_of main_arg0 (by decide) (by decide))).trans
        ((Wf_ne m c main_arg0 (by decide)).trans ((Wt_ne m c main_arg0 (by decide)).trans (V_arg0 m c)))⟩)

end Cert.KernelIdeal.Hand

end
-- ==== Proof.KChunks.lean ====
/-
  The output block entry by entry. Row `r` of the block at sample `s` is sample `125 * r + s` of the 1200 samples
  `cur ++ nxt[0 ‥ 200)`: of `cur` while `125 * r + s < 1000` — every row but the last, and the last row's first half
  — and of `nxt`, at `s - 125`, for the last row's second half.
-/
import proofs.«117220_j62783831933059_1_alg».proof.Proof.KDefs
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.ValueIdx Idealize.SL.Sem Cert.KernelIdeal Cert.KernelIdeal.Gen

variable {F : FTy → Type} [FloatOps F]

/-- The three zero offsets, as the constant function. -/
theorem zero3 : (![0, 0, 0] : Fin 3 → Nat) = fun _ => 0 := by
  funext a; fin_cases a <;> rfl

/-- The load of `cur`'s whole buffer reads its contents. -/
theorem ld_cur (x0 : Vec F S16x1000x64 .f32) : View.ld x0 rCur = x0 :=
  View.ld_unit_zero (S := S16x1000x64) zero3 _ x0

/-- The load of `nxt`'s whole buffer reads its contents. -/
theorem ld_nxt (x1 : Vec F S16x200x64 .f32) : View.ld x1 rNxt = x1 :=
  View.ld_unit_zero (S := S16x200x64) zero3 _ x1

/-! ## The payloads at an index -/

/-- A unit axis put between the batch and the samples: the cast reads the operand at the other three coordinates. -/
theorem cast_row {α : Type} (x : S16x250x64.Idx → α) (h : S16x250x64.ShapeCasts S16x1x250x64)
    (b : Fin 16) (u : Fin 1) (s : Fin 250) (f : Fin 64) :
    shapeCast S16x1x250x64 x h (ix4 b u s f) = x (ix3 b s f) :=
  shapeCast_apply x h _ _ (by
    have hu : u.val = 0 := by omega
    rw [Shape.rowMajor_val_four, Shape.rowMajor_val_three]
    show (b.val * 250 + s.val) * 64 + f.val = ((b.val * 1 + u.val) * 250 + s.val) * 64 + f.val
    rw [hu, Nat.mul_one, Nat.add_zero])

/-- The cast of the loaded `cur` to its own shape is the identity. -/
theorem pay4_eq (v0 : Vec F S16x1000x64 .f32) : k0_pay4 v0 = v0 := by
  unfold k0_pay4; exact shapeCast_self _ _

/-- The cast of the loaded `nxt` to its own shape is the identity. -/
theorem pay5_eq (v2 : Vec F S16x200x64 .f32) : k0_pay5 v2 = v2 := by
  unfold k0_pay5; exact shapeCast_self _ _

/-- Row 0's payload: `cur` from sample 0. -/
theorem pay6_apply (x0 : Vec F S16x1000x64 .f32) (b : Fin 16) (u : Fin 1) (s : Fin 250) (f : Fin 64)
    (k : Fin 1000) (hk : k.val = 0 + s.val) : k0_pay6 x0 (ix4 b u s f) = x0 (ix3 b k f) := by
  unfold k0_pay6
  rw [cast_row, pay4_eq]
  exact slice3_axis1_apply 0 x0 _ b s f k hk

/-- Row 1's payload: `cur` from sample 125. -/
theorem pay7_apply (x0 : Vec F S16x1000x64 .f32) (b : Fin 16) (u : Fin 1) (s : Fin 250) (f : Fin 64)
    (k : Fin 1000) (hk : k.val = 125 + s.val) : k0_pay7 x0 (ix4 b u s f) = x0 (ix3 b k f) := by
  unfold k0_pay7
  rw [cast_row, pay4_eq]
  exact slice3_axis1_apply 125 x0 _ b s f k hk

/-- Row 2's payload: `cur` from sample 250. -/
theorem pay8_apply (x0 : Vec F S16x1000x64 .f32) (b : Fin 16) (u : Fin 1) (s : Fin 250) (f : Fin 64)
    (k : Fin 1000) (hk : k.val = 250 + s.val) : k0_pay8 x0 (ix4 b u s f) = x0 (ix3 b k f) := by
  unfold k0_pay8
  rw [cast_row, pay4_eq]
  exact slice3_axis1_apply 250 x0 _ b s f k hk

/-- Row 3's payload: `cur` from sample 375. -/
theorem pay9_apply (x0 : Vec F S16x1000x64 .f32) (b : Fin 16) (u : Fin 1) (s : Fin 250) (f : Fin 64)
    (k : Fin 1000) (hk : k.val = 375 + s.val) : k0_pay9 x0 (ix4 b u s f) = x0 (ix3 b k f) := by
  unfold k0_pay9
  rw [cast_row, pay4_eq]
  exact slice3_axis1_apply 375 x0 _ b s f k hk

/-- Row 4's payload: `cur` from sample 500. -/
theorem pay11_apply (x0 : Vec F S16x1000x64 .f32) (b : Fin 16) (u : Fin 1) (s : Fin 250) (f : Fin 64)
    (k : Fin 1000) (hk : k.val = 500 + s.val) : k0_pay11 x0 (ix4 b u s f) = x0 (ix3 b k f) := by
  unfold k0_pay11
  rw [cast_row, pay4_eq]
  exact slice3_axis1_apply 500 x0 _ b s f k hk

/-- Row 5's payload, the slice taken first and cast afterwards: `cur` from sample 625. -/
theorem pay1_pay10_apply (x0 : Vec F S16x1000x64 .f32) (b : Fin 16) (u : Fin 1) (s : Fin 250) (f : Fin 64)
    (k : Fin 1000) (hk : k.val = 625 + s.val) : k0_pay1 (k0_pay10 x0) (ix4 b u s f) = x0 (ix3 b k f) := by
  unfold k0_pay1 k0_pay10
  rw [cast_row, pay4_eq]
  exact slice3_axis1_apply 625 x0 _ b s f k hk

/-- Row 6's payload: `cur` from sample 750. -/
theorem pay2_apply (x0 : Vec F S16x1000x64 .f32) (b : Fin 16) (u : Fin 1) (s : Fin 250) (f : Fin 64)
    (k : Fin 1000) (hk : k.val = 750 + s.val) : k0_pay2 (k0_pay4 x0) (ix4 b u s f) = x0 (ix3 b k f) := by
  unfold k0_pay2
  rw [cast_row, pay4_eq]
  exact slice3_axis1_apply 750 x0 _ b s f k hk

/-- Row 7's payload in its first half: the first piece of the two laid end to end, `cur` from sample 875. -/
theorem pay3_apply_lo (x0 : Vec F S16x1000x64 .f32) (x1 : Vec F S16x200x64 .f32) (b : Fin 16) (u : Fin 1) (s : Fin 250)
    (f : Fin 64) (hs : s.val < 125) (k : Fin 1000) (hk : k.val = 875 + s.val) :
    k0_pay3 (k0_pay4 x0) (k0_pay5 x1) (ix4 b u s f) = x0 (ix3 b k f) := by
  unfold k0_pay3
  rw [cast_row, pay4_eq, pay5_eq]
  rw [concatenate_pair_apply_left (t := S16x250x64) (s₁ := S16x125x64) (s₂ := S16x125x64) (1 : Fin 3) _ _ _
    (ix3 b s f) rfl (ix3 b (⟨s.val, hs⟩ : Fin 125) f)
    (fun a => match a with | ⟨0, _⟩ => rfl | ⟨1, _⟩ => rfl | ⟨2, _⟩ => rfl)]
  exact slice3_axis1_apply 875 x0 _ b ⟨s.val, hs⟩ f k hk

/-- Row 7's payload in its second half: the second piece, `nxt` from sample 0, read 125 samples back. -/
theorem pay3_apply_hi (x0 : Vec F S16x1000x64 .f32) (x1 : Vec F S16x200x64 .f32) (b : Fin 16) (u : Fin 1) (s : Fin 250)
    (f : Fin 64) (hs : 125 ≤ s.val) (k : Fin 200) (hk : k.val = s.val - 125) :
    k0_pay3 (k0_pay4 x0) (k0_pay5 x1) (ix4 b u s f) = x1 (ix3 b k f) := by
  unfold k0_pay3
  rw [cast_row, pay4_eq, pay5_eq]
  rw [concatenate_pair_apply_right (t := S16x250x64) (s₁ := S16x125x64) (s₂ := S16x125x64) (1 : Fin 3) _ _ _
    (ix3 b s f) rfl rfl (ix3 b (⟨s.val - 125, by omega⟩ : Fin 125) f)
    (fun a => match a with
      | ⟨0, _⟩ => fun _ => rfl
      | ⟨1, _⟩ => fun h => absurd rfl h
      | ⟨2, _⟩ => fun _ => rfl)
    (by show s.val - 125 + 125 = s.val; omega)]
  exact slice3_axis1_apply 0 x1 _ b ⟨s.val - 125, by omega⟩ f k (by rw [hk]; exact (Nat.zero_add _).symm)

/-! ## Which row holds an index -/

/-- Row `k`'s rectangle holds no entry of another row. -/
theorem not_mem_row (k : Nat) (inb : ∀ a, (![0, k, 0, 0] : Fin 4 → Nat) a + S16x1x250x64.size a ≤ S16x8x250x64.size a)
    (b : Fin 16) (r : Fin 8) (s : Fin 250) (f : Fin 64) (h : r.val ≠ k) :
    ix4 b r s f ∉ (Rect.unit (s := S16x8x250x64) ![0, k, 0, 0] S16x1x250x64.size inb).set := by
  intro hm
  have h1 : k ≤ r.val ∧ r.val < k + 1 := (Rect.mem_set_unit.mp hm) 1
  omega

/-- Row `k`'s rectangle puts its entry `(b, 0, s, f)` at `(b, k, s, f)` of the block. -/
theorem emb_row (k : Nat) (inb : ∀ a, (![0, k, 0, 0] : Fin 4 → Nat) a + S16x1x250x64.size a ≤ S16x8x250x64.size a)
    (b : Fin 16) (r : Fin 8) (s : Fin 250) (f : Fin 64) (h : r.val = k) :
    (Rect.unit (s := S16x8x250x64) ![0, k, 0, 0] S16x1x250x64.size inb).emb (ix4 b (0 : Fin 1) s f) = ix4 b r s f := by
  funext a
  apply Fin.ext
  match a with
  | ⟨0, _⟩ => show 0 + 1 * b.val = b.val; omega
  | ⟨1, _⟩ => show k + 1 * 0 = r.val; omega
  | ⟨2, _⟩ => show 0 + 1 * s.val = s.val; omega
  | ⟨3, _⟩ => show 0 + 1 * f.val = f.val; omega

/-- An entry of another row passes a store of row `k` by. -/
theorem canon_skip (k : Nat) (inb : ∀ a, (![0, k, 0, 0] : Fin 4 → Nat) a + S16x1x250x64.size a ≤ S16x8x250x64.size a)
    (w : S16x1x250x64.Idx → Elt F .f32) (L : List (View.Piece (Elt F) S16x8x250x64 .f32))
    (b : Fin 16) (r : Fin 8) (s : Fin 250) (f : Fin 64) (h : r.val ≠ k) :
    View.canon (⟨Rect.unit (s := S16x8x250x64) ![0, k, 0, 0] S16x1x250x64.size inb, w⟩ :: L) (ix4 b r s f)
      = View.canon L (ix4 b r s f) :=
  View.canon_cons_of_not_mem _ L (not_mem_row k inb b r s f h)

/-- An entry of row `k` reads the last store of row `k`. -/
theorem canon_hit (k : Nat) (inb : ∀ a, (![0, k, 0, 0] : Fin 4 → Nat) a + S16x1x250x64.size a ≤ S16x8x250x64.size a)
    (w : S16x1x250x64.Idx → Elt F .f32) (L : List (View.Piece (Elt F) S16x8x250x64 .f32))
    (b : Fin 16) (r : Fin 8) (s : Fin 250) (f : Fin 64) (h : r.val = k) :
    View.canon (⟨Rect.unit (s := S16x8x250x64) ![0, k, 0, 0] S16x1x250x64.size inb, w⟩ :: L) (ix4 b r s f)
      = w (ix4 b (0 : Fin 1) s f) := by
  rw [← emb_row k inb b r s f h]
  exact View.canon_cons_emb (Rect.unit (s := S16x8x250x64) ![0, k, 0, 0] S16x1x250x64.size inb) w L _

/-- An entry of row `r` of the block is row `r`'s payload at that entry. -/
theorem chunks_row7 (x0 : Vec F S16x1000x64 .f32) (x1 : Vec F S16x200x64 .f32) (b : Fin 16) (r : Fin 8) (s : Fin 250)
    (f : Fin 64) (hr : r.val = 7) :
    chunks x0 x1 (ix4 b r s f) = k0_pay3 (k0_pay4 x0) (k0_pay5 x1) (ix4 b (0 : Fin 1) s f) := by
  unfold chunks rows
  rw [canon_hit 7 _ _ _ b r s f hr, ld_cur, ld_nxt]

theorem chunks_row6 (x0 : Vec F S16x1000x64 .f32) (x1 : Vec F S16x200x64 .f32) (b : Fin 16) (r : Fin 8) (s : Fin 250)
    (f : Fin 64) (hr : r.val = 6) :
    chunks x0 x1 (ix4 b r s f) = k0_pay2 (k0_pay4 x0) (ix4 b (0 : Fin 1) s f) := by
  unfold chunks rows
  rw [canon_skip 7 _ _ _ b r s f (by omega), canon_hit 6 _ _ _ b r s f hr, ld_cur]

theorem chunks_row5 (x0 : Vec F S16x1000x64 .f32) (x1 : Vec F S16x200x64 .f32) (b : Fin 16) (r : Fin 8) (s : Fin 250)
    (f : Fin 64) (hr : r.val = 5) :
    chunks x0 x1 (ix4 b r s f) = k0_pay1 (k0_pay10 x0) (ix4 b (0 : Fin 1) s f) := by
  unfold chunks rows
  rw [canon_skip 7 _ _ _ b r s f (by omega), canon_skip 6 _ _ _ b r s f (by omega), canon_hit 5 _ _ _ b r s f hr, ld_cur]

theorem chunks_row4 (x0 : Vec F S16x1000x64 .f32) (x1 : Vec F S16x200x64 .f32) (b : Fin 16) (r : Fin 8) (s : Fin 250)
    (f : Fin 64) (hr : r.val = 4) :
    chunks x0 x1 (ix4 b r s f) = k0_pay11 x0 (ix4 b (0 : Fin 1) s f) := by
  unfold chunks rows
  rw [canon_skip 7 _ _ _ b r s f (by omega), canon_skip 6 _ _ _ b r s f (by omega), canon_skip 5 _ _ _ b r s f (by omega),
    canon_hit 4 _ _ _ b r s f hr, ld_cur]

theorem chunks_row3 (x0 : Vec F S16x1000x64 .f32) (x1 : Vec F S16x200x64 .f32) (b : Fin 16) (r : Fin 8) (s : Fin 250)
    (f : Fin 64) (hr : r.val = 3) :
    chunks x0 x1 (ix4 b r s f) = k0_pay9 x0 (ix4 b (0 : Fin 1) s f) := by
  unfold chunks rows
  rw [canon_skip 7 _ _ _ b r s f (by omega), canon_skip 6 _ _ _ b r s f (by omega), canon_skip 5 _ _ _ b r s f (by omega),
    canon_skip 4 _ _ _ b r s f (by omega), canon_hit 3 _ _ _ b r s f hr, ld_cur]

theorem chunks_row2 (x0 : Vec F S16x1000x64 .f32) (x1 : Vec F S16x200x64 .f32) (b : Fin 16) (r : Fin 8) (s : Fin 250)
    (f : Fin 64) (hr : r.val = 2) :
    chunks x0 x1 (ix4 b r s f) = k0_pay8 x0 (ix4 b (0 : Fin 1) s f) := by
  unfold chunks rows
  rw [canon_skip 7 _ _ _ b r s f (by omega), canon_skip 6 _ _ _ b r s f (by omega), canon_skip 5 _ _ _ b r s f (by omega),
    canon_skip 4 _ _ _ b r s f (by omega), canon_skip 3 _ _ _ b r s f (by omega), canon_hit 2 _ _ _ b r s f hr, ld_cur]

theorem chunks_row1 (x0 : Vec F S16x1000x64 .f32) (x1 : Vec F S16x200x64 .f32) (b : Fin 16) (r : Fin 8) (s : Fin 250)
    (f : Fin 64) (hr : r.val = 1) :
    chunks x0 x1 (ix4 b r s f) = k0_pay7 x0 (ix4 b (0 : Fin 1) s f) := by
  unfold chunks rows
  rw [canon_skip 7 _ _ _ b r s f (by omega), canon_skip 6 _ _ _ b r s f (by omega), canon_skip 5 _ _ _ b r s f (by omega),
    canon_skip 4 _ _ _ b r s f (by omega), canon_skip 3 _ _ _ b r s f (by omega), canon_skip 2 _ _ _ b r s f (by omega),
    canon_hit 1 _ _ _ b r s f hr, ld_cur]

theorem chunks_row0 (x0 : Vec F S16x1000x64 .f32) (x1 : Vec F S16x200x64 .f32) (b : Fin 16) (r : Fin 8) (s : Fin 250)
    (f : Fin 64) (hr : r.val = 0) :
    chunks x0 x1 (ix4 b r s f) = k0_pay6 x0 (ix4 b (0 : Fin 1) s f) := by
  unfold chunks rows
  rw [canon_skip 7 _ _ _ b r s f (by omega), canon_skip 6 _ _ _ b r s f (by omega), canon_skip 5 _ _ _ b r s f (by omega),
    canon_skip 4 _ _ _ b r s f (by omega), canon_skip 3 _ _ _ b r s f (by omega), canon_skip 2 _ _ _ b r s f (by omega),
    canon_skip 1 _ _ _ b r s f (by omega), canon_hit 0 _ _ _ b r s f hr, ld_cur]

/-! ## The block entry by entry -/

/-- An entry that comes from `cur`: any row before the last, or the last row's first 125 samples. -/
theorem chunks_lo (x0 : Vec F S16x1000x64 .f32) (x1 : Vec F S16x200x64 .f32) (b : Fin 16) (r : Fin 8) (s : Fin 250) (f : Fin 64)
    (h : r.val < 7 ∨ s.val < 125) :
    chunks x0 x1 (ix4 b r s f) = x0 (ix3 b ⟨125 * r.val + s.val, by omega⟩ f) := by
  have hr : r.val = 0 ∨ r.val = 1 ∨ r.val = 2 ∨ r.val = 3 ∨ r.val = 4 ∨ r.val = 5 ∨ r.val = 6 ∨ r.val = 7 := by omega
  rcases hr with hr | hr | hr | hr | hr | hr | hr | hr
  · rw [chunks_row0 x0 x1 b r s f hr]
    exact pay6_apply x0 b 0 s f _ (by show 125 * r.val + s.val = 0 + s.val; omega)
  · rw [chunks_row1 x0 x1 b r s f hr]
    exact pay7_apply x0 b 0 s f _ (by show 125 * r.val + s.val = 125 + s.val; omega)
  · rw [chunks_row2 x0 x1 b r s f hr]
    exact pay8_apply x0 b 0 s f _ (by show 125 * r.val + s.val = 250 + s.val; omega)
  · rw [chunks_row3 x0 x1 b r s f hr]
    exact pay9_apply x0 b 0 s f _ (by show 125 * r.val + s.val = 375 + s.val; omega)
  · rw [chunks_row4 x0 x1 b r s f hr]
    exact pay11_apply x0 b 0 s f _ (by show 125 * r.val + s.val = 500 + s.val; omega)
  · rw [chunks_row5 x0 x1 b r s f hr]
    exact pay1_pay10_apply x0 b 0 s f _ (by show 125 * r.val + s.val = 625 + s.val; omega)
  · rw [chunks_row6 x0 x1 b r s f hr]
    exact pay2_apply x0 b 0 s f _ (by show 125 * r.val + s.val = 750 + s.val; omega)
  · rw [chunks_row7 x0 x1 b r s f hr]
    exact pay3_apply_lo x0 x1 b 0 s f (by omega) _ (by show 125 * r.val + s.val = 875 + s.val; omega)

/-- An entry that comes from `nxt`: the last row's samples from 125 on. -/
theorem chunks_hi (x0 : Vec F S16x1000x64 .f32) (x1 : Vec F S16x200x64 .f32) (b : Fin 16) (s : Fin 250) (f : Fin 64)
    (h : 125 ≤ s.val) :
    chunks x0 x1 (ix4 b (7 : Fin 8) s f) = x1 (ix3 b ⟨s.val - 125, by omega⟩ f) := by
  rw [chunks_row7 x0 x1 b 7 s f rfl]
  exact pay3_apply_hi x0 x1 b 0 s f h _ rfl

end Cert.KernelIdeal.Hand

end
-- ==== Proof.Spec.lean ====
/-
  The function both programs compute. The input is a signal `x[b, s, f]` of 32000 samples; the result lists its
  255 half-overlapping chunks of 250 samples: chunk `j` starts at sample `125 * j`, so
  `out[b, j, c, f] = x[b, 125 * j + c, f]`. The last chunk starts at `125 * 254 = 31750` and ends at sample
  `31999`, the last one: every entry of the result is an entry of the input, and nothing is computed.
-/
import Idealize.ShloMosaic.Lib.ValueIdx

namespace Cert.Spec

open Idealize.ShloMosaic Idealize.ShloMosaic.ValueIdx

/-- The signal's shape. -/
abbrev SIn : Shape := ⟨3, ![16, 32000, 64]⟩
/-- The chunked result's shape. -/
abbrev SOut : Shape := ⟨4, ![16, 255, 250, 64]⟩

/-- The sample an entry of chunk `j` at offset `c` is: `125 * j + c`, below 32000 since `j ≤ 254` and `c ≤ 249`. -/
theorem sample_lt (j : Fin 255) (c : Fin 250) : 125 * j.val + c.val < 32000 := by omega

/-- Where entry `i` of the result sits in the signal. -/
def src (i : SOut.Idx) : SIn.Idx :=
  ix3 (n0 := 16) (n1 := 32000) (n2 := 64) (i 0) ⟨125 * (i 1 : Fin 255).val + (i 2 : Fin 250).val, sample_lt (i 1) (i 2)⟩ (i 3)

/-- The chunked signal: entry `i` of the result is the signal at `src i`. -/
def G {α : Type} (x : SIn.Idx → α) : SOut.Idx → α := fun i => x (src i)

theorem G_apply {α : Type} (x : SIn.Idx → α) (i : SOut.Idx) : G x i = x (src i) := rfl

/-- The source index by coordinates. -/
theorem src_ix4 (b : Fin 16) (j : Fin 255) (c : Fin 250) (f : Fin 64) :
    src (ix4 b j c f) = ix3 b ⟨125 * j.val + c.val, sample_lt j c⟩ f := rfl

end Cert.Spec
-- ==== Proof.KValue.lean ====
/-
  What the kernel's program leaves in its result. Point `t` writes its output block onto rows `8 t ‥ 8 t + 8` of
  the 256-chunk array, the 32 blocks tile it, and row `r` of block `t` at sample `s` is the padded signal at row
  `1000 t + 125 r + s = 125 (8 t + r) + s` — from window 0's block while `125 r + s < 1000`, else from window 1's,
  which starts at row `1000 (t + 1)`. So the array ends at `xpad[b, 125 j + s, f]` over all 256 chunks. The last
  host line keeps chunks `0 ‥ 254`, whose rows `125 j + s` stay below 32000: there the padded signal is the signal,
  and the result is `Cert.Spec.G` of it, whatever the pad value.
-/
import proofs.«117220_j62783831933059_1_alg».proof.Proof.KData
import proofs.«117220_j62783831933059_1_alg».proof.Proof.KChunks
import proofs.«117220_j62783831933059_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ)

/-! ## The two input blocks, read off the padded signal -/

/-- The grid has 32 points. -/
theorem point_lt (t : Fin cfg0.N) : t.val < 32 := lt_of_lt_of_eq t.isLt N_0

/-- The printed index maps over the grid. -/
theorem index_maps : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 5 * (t.val + 1) ∧ win0_1.index t (2 : Fin 3) = 0
    ∧ win0_2.index t (0 : Fin 4) = 0 ∧ win0_2.index t (1 : Fin 4) = t.val ∧ win0_2.index t (2 : Fin 4) = 0
    ∧ win0_2.index t (3 : Fin 4) = 0 :=
  (by decide +kernel : ∀ t : Fin grid0.N, _)

/-- Window 0's block at point `t` is rows `1000 t ‥ 1000 t + 1000` of the padded signal. -/
theorem cur_apply (c : Dev nD) (t : Fin cfg0.N) (b : Fin 16) (y : Fin 1000) (f : Fin 64) :
    cur m c t (ix3 b y f) = V m c main_v0 (ix3 b ⟨1000 * t.val + y.val, by have := point_lt t; omega⟩ f) := by
  have hm : win0_0.moved (grid0.coords t) (ix3 b y f) = true := (win0_0.moved_iff _ _).mpr fun a => by
    have := ((ix3 b y f : S16x1000x64.Idx) a).isLt; unfold Window.xsize; rw [uncut0 t a]; exact this
  unfold cur curRead Window.fill
  rw [dif_pos hm, View.read_apply]
  obtain ⟨e0, e1, e2, -⟩ := index_maps t
  show V m c main_v0 ((win0_0.blk t).view.emb _) = _
  refine congrArg (V m c main_v0) (funext fun a => Fin.ext ?_)
  match a with
  | ⟨0, _⟩ => show win0_0.index t (0 : Fin 3) * 16 + 1 * b.val = b.val; omega
  | ⟨1, _⟩ => show win0_0.index t (1 : Fin 3) * 1000 + 1 * y.val = 1000 * t.val + y.val; omega
  | ⟨2, _⟩ => show win0_0.index t (2 : Fin 3) * 64 + 1 * f.val = f.val; omega

/-- Window 1's block at point `t` is the 200 rows from `1000 (t + 1)` on. -/
theorem nxt_apply (c : Dev nD) (t : Fin cfg0.N) (b : Fin 16) (y : Fin 200) (f : Fin 64) :
    nxt m c t (ix3 b y f) = V m c main_v0 (ix3 b ⟨1000 * (t.val + 1) + y.val, by have := point_lt t; omega⟩ f) := by
  have hm : win0_1.moved (grid0.coords t) (ix3 b y f) = true := (win0_1.moved_iff _ _).mpr fun a => by
    have := ((ix3 b y f : S16x200x64.Idx) a).isLt; unfold Window.xsize; rw [uncut1 t a]; exact this
  unfold nxt nxtRead Window.fill
  rw [dif_pos hm, View.read_apply]
  obtain ⟨-, -, -, e0, e1, e2, -⟩ := index_maps t
  show V m c main_v0 ((win0_1.blk t).view.emb _) = _
  refine congrArg (V m c main_v0) (funext fun a => Fin.ext ?_)
  match a with
  | ⟨0, _⟩ => show win0_1.index t (0 : Fin 3) * 16 + 1 * b.val = b.val; omega
  | ⟨1, _⟩ => show win0_1.index t (1 : Fin 3) * 200 + 1 * y.val = 1000 * (t.val + 1) + y.val; omega
  | ⟨2, _⟩ => show win0_1.index t (2 : Fin 3) * 64 + 1 * f.val = f.val; omega

/-! ## One output block -/

/-- Two reads of one array at the same batch, row and filter. -/
theorem row_congr {α : Type} (X : S16x32256x64.Idx → α) (b : Fin 16) (f : Fin 64) {p q : Nat} (hp : p < 32256) (hq : q < 32256)
    (e : p = q) : X (ix3 b ⟨p, hp⟩ f) = X (ix3 b ⟨q, hq⟩ f) := by subst e; rfl

/-- Row `r` of the output block at point `t`, sample `s`: the padded signal at row `1000 t + 125 r + s`. -/
theorem block_apply (c : Dev nD) (t : Fin cfg0.N) (b : Fin 16) (r : Fin 8) (s : Fin 250) (f : Fin 64) :
    chunks (cur m c t) (nxt m c t) (ix4 b r s f)
      = V m c main_v0 (ix3 b ⟨1000 * t.val + 125 * r.val + s.val, by have := point_lt t; omega⟩ f) := by
  by_cases h : r.val < 7 ∨ s.val < 125
  · rw [chunks_lo _ _ b r s f h, cur_apply]
    exact row_congr _ b f _ _ (by show 1000 * t.val + (125 * r.val + s.val) = 1000 * t.val + 125 * r.val + s.val; omega)
  · have hr : r = (7 : Fin 8) := Fin.ext (by show r.val = 7; omega)
    subst hr
    rw [chunks_hi _ _ b s f (by omega), nxt_apply]
    exact row_congr _ b f _ _ (by show 1000 * (t.val + 1) + (s.val - 125) = 1000 * t.val + 125 * 7 + s.val; omega)

/-! ## From the blocks to the array -/

/-- Chunk `j` at offset `s` is row `125 j + s`, inside the padded signal's 32256 rows. -/
theorem row_lt (j : Fin 256) (s : Fin 250) : 125 * j.val + s.val < 32256 := by omega

/-- The 256 half-overlapping chunks of 250 rows of a 32256-row array. -/
def rowsOf {α : Type} (X : S16x32256x64.Idx → α) : S16x256x250x64.Idx → α := fun i =>
  X (ix3 (n0 := 16) (n1 := 32256) (n2 := 64) (i 0) ⟨125 * (i 1 : Fin 256).val + (i 2 : Fin 250).val, row_lt (i 1) (i 2)⟩ (i 3))

theorem rowsOf_ix4 {α : Type} (X : S16x32256x64.Idx → α) (b : Fin 16) (j : Fin 256) (s : Fin 250) (f : Fin 64) :
    rowsOf X (ix4 b j s f) = X (ix3 b ⟨125 * j.val + s.val, row_lt j s⟩ f) := rfl

/-- Where an entry of point `t`'s output block sits in the array: chunk `8 t + r`. -/
theorem out_emb (t : Fin cfg0.N) (b : Fin 16) (r : Fin 8) (s : Fin 250) (f : Fin 64) :
    ((cfg0.win 2).blk t).view.emb (ix4 b r s f)
      = (ix4 b ⟨8 * t.val + r.val, by have := point_lt t; omega⟩ s f : S16x256x250x64.Idx) := by
  obtain ⟨-, -, -, -, -, -, e0, e1, e2, e3⟩ := index_maps t
  funext a; apply Fin.ext
  match a with
  | ⟨0, _⟩ => show win0_2.index t (0 : Fin 4) * 16 + 1 * b.val = b.val; omega
  | ⟨1, _⟩ => show win0_2.index t (1 : Fin 4) * 8 + 1 * r.val = 8 * t.val + r.val; omega
  | ⟨2, _⟩ => show win0_2.index t (2 : Fin 4) * 250 + 1 * s.val = s.val; omega
  | ⟨3, _⟩ => show win0_2.index t (3 : Fin 4) * 64 + 1 * f.val = f.val; omega

/-- The output block at point `t` is block `t` of the chunks of the padded signal. -/
theorem block_read (c : Dev nD) (t : Fin cfg0.N) (y : S16x8x250x64.Idx) :
    chunks (cur m c t) (nxt m c t) y = rowsOf (V m c main_v0) (((cfg0.win 2).blk t).view.emb y) := by
  obtain ⟨b, r, s, f, rfl⟩ : ∃ (b : Fin 16) (r : Fin 8) (s : Fin 250) (f : Fin 64), y = ix4 b r s f :=
    ⟨y 0, y 1, y 2, y 3, eq_ix4 y⟩
  rw [out_emb, rowsOf_ix4, block_apply]
  exact row_congr _ b f _ _ (by show 1000 * t.val + 125 * r.val + s.val = 125 * (8 * t.val + r.val) + s.val; omega)

/-- What point `t` writes back. -/
theorem flushed_eq (c : Dev nD) (t : Fin cfg0.N) :
    (dats m 0 c).flushed 2 t = ((cfg0.win 2).blk t).view.read (Elt F) (rowsOf (V m c main_v0)) := by
  show (cfg0.win 2).cut (grid0.coords t) ((dats m 0 c).after 2 t) = _
  rw [after_out]
  funext y
  exact block_read m c t y

/-- An index of the array is in point `t`'s block iff each coordinate is in the block's range on its axis. -/
theorem mem_out_blk (t : Fin cfg0.N) (i : S16x256x250x64.Idx) :
    i ∈ ((cfg0.win 2).blk t).view.set ↔ ∀ a : Fin 4, win0_2.index t a * S16x8x250x64.size a ≤ (i a).val
      ∧ (i a).val < win0_2.index t a * S16x8x250x64.size a + S16x8x250x64.size a := by
  show i ∈ ((View.whole main_v1).slice (win0_2.rect t)).set ↔ _
  rw [View.set_slice_whole, Rect.mem_set_unit]
  exact Iff.rfl

/-- The 32 blocks tile the array: chunk `j` lies in the block of point `j / 8`. -/
theorem out_cover (i : S16x256x250x64.Idx) :
    ∃ t : Fin cfg0.N, (cfg0.win 2).flush t = true ∧ i ∈ ((cfg0.win 2).blk t).view.set := by
  have h0 : (i 0).val < 16 := (i 0).isLt
  have h1 : (i 1).val < 256 := (i 1).isLt
  have h2 : (i 2).val < 250 := (i 2).isLt
  have h3 : (i 3).val < 64 := (i 3).isLt
  have hN : (i 1).val / 8 < cfg0.N := by have : grid0.N = 32 := N_0; show _ < grid0.N; omega
  obtain ⟨t, ht⟩ : ∃ t : Fin cfg0.N, t.val = (i 1).val / 8 := ⟨⟨_, hN⟩, rfl⟩
  obtain ⟨-, -, -, -, -, -, e0, e1, e2, e3⟩ := index_maps t
  refine ⟨t, flush0_2 t, ?_⟩
  rw [mem_out_blk]
  intro a
  match a with
  | ⟨0, _⟩ => show win0_2.index t (0 : Fin 4) * 16 ≤ (i 0).val ∧ (i 0).val < win0_2.index t (0 : Fin 4) * 16 + 16; omega
  | ⟨1, _⟩ => show win0_2.index t (1 : Fin 4) * 8 ≤ (i 1).val ∧ (i 1).val < win0_2.index t (1 : Fin 4) * 8 + 8; omega
  | ⟨2, _⟩ => show win0_2.index t (2 : Fin 4) * 250 ≤ (i 2).val ∧ (i 2).val < win0_2.index t (2 : Fin 4) * 250 + 250; omega
  | ⟨3, _⟩ => show win0_2.index t (3 : Fin 4) * 64 ≤ (i 3).val ∧ (i 3).val < win0_2.index t (3 : Fin 4) * 64 + 64; omega

/-- The array the region leaves: the 256 chunks of the padded signal. -/
theorem out_final (c : Dev nD) : (dats m 0 c).arrAt 2 cfg0.N = rowsOf (V m c main_v0) :=
  (dats m 0 c).arrAt_eq_of_cover 2 (rowsOf (V m c main_v0)) (fun t _ => flushed_eq m c t) out_cover

/-! ## The padded signal below row 32000, and the result -/

/-- The padded signal as the host lines before the region leave it: the signal, 256 rows of the converted constant after it. -/
theorem xpad_eq (c : Dev nD) : (V m c main_v0 : S16x32256x64.Idx → Elt F .f32)
    = pad S16x32256x64 ![0, 0, 0] ![0, 256, 0] ![0, 0, 0] (m ((c.tc : Thread nD τ).loc main_arg0))
        (sitofp .f32 (constantI S_ 32 0#32)) pads_S16x32000x64_S16x32256x64_000_02560_000 h_S_ := by
  dsimp only [V, V0]
  simp only [hostOps0, hostOps0_1, List.flatten_cons, List.flatten_nil, List.append_nil, List.cons_append, List.nil_append]
  after_results
  rfl

/-- Below row 32000 the padded signal is the signal, whatever the pad value. -/
theorem xpad_apply (c : Dev nD) (b : Fin 16) (p : Fin 32000) (f : Fin 64) :
    V m c main_v0 (ix3 b ⟨p.val, by omega⟩ f) = m ((c.tc : Thread nD τ).loc main_arg0) (ix3 b p f) := by
  rw [xpad_eq]
  exact pad_apply_of_inside _ _ _ _ _ _ _ _ (ix3 b p f) (fun a => match a with
    | ⟨0, _⟩ => by show b.val = 0 + b.val * (0 + 1); omega
    | ⟨1, _⟩ => by show p.val = 0 + p.val * (0 + 1); omega
    | ⟨2, _⟩ => by show f.val = 0 + f.val * (0 + 1); omega)

/-- The first 255 chunks of the 256-chunk array the region leaves are the chunked signal. -/
theorem value (c : Dev nD) :
    (extractStridedSlice S16x255x250x64 ![0, 0, 0, 0] ((dats m 0 c).arrAt 2 cfg0.N : Vec F S16x256x250x64 .f32)
        slices_S16x256x250x64_S16x255x250x64_0_0_0_0 : Vec F S16x255x250x64 .f32)
      = Cert.Spec.G (m ((c.tc : Thread nD τ).loc main_arg0)) := by
  rw [out_final]
  funext i
  obtain ⟨b, j, s, f, rfl⟩ : ∃ (b : Fin 16) (j : Fin 255) (s : Fin 250) (f : Fin 64), i = ix4 b j s f :=
    ⟨i 0, i 1, i 2, i 3, eq_ix4 i⟩
  refine (extractStridedSlice_apply _ _ _ _ (ix4 b (⟨j.val, by omega⟩ : Fin 256) s f) (fun a => match a with
    | ⟨0, _⟩ => by show b.val = 0 + b.val; omega
    | ⟨1, _⟩ => by show j.val = 0 + j.val; omega
    | ⟨2, _⟩ => by show s.val = 0 + s.val; omega
    | ⟨3, _⟩ => by show f.val = 0 + f.val; omega)).trans ?_
  rw [rowsOf_ix4, Cert.Spec.G_apply, Cert.Spec.src_ix4]
  exact xpad_apply m c b ⟨125 * j.val + s.val, Cert.Spec.sample_lt j s⟩ f

end Cert.KernelIdeal.Hand

end
-- ==== Proof.RefRun.lean ====
/-
  The reference's run. The reference reshapes the signal into 128 aligned chunks, shifts the signal by half a chunk and
  reshapes again for the 127 chunks in between, lays the two families end to end and picks them alternately by a constant
  index table: chunk `2 i` is aligned chunk `i`, chunk `2 i + 1` the shifted chunk `i`. Entry by entry that is
  the signal at sample `125 * j + c`: `Cert.Spec.G`.
-/
import proofs.«117220_j62783831933059_1_alg».proof.Defs
import proofs.«117220_j62783831933059_1_alg».proof.Proof.Gen.ReferenceIdeal
import proofs.«117220_j62783831933059_1_alg».proof.Proof.Spec
import Idealize.ShloMosaic.Lib.StableHlo.Run
import Idealize.ShloMosaic.Lib.ValueIdx
import Idealize.ShloMosaic.Lib.Pipeline.Value
import Idealize.ShloMosaic.Lib.ReduceAll

noncomputable section

namespace Cert.ReferenceIdeal.Hand

open Idealize.ShloMosaic Idealize.ShloMosaic.TcCoe Idealize.SL.Sem Cert.ReferenceIdeal Cert.ReferenceIdeal.Gen
open Idealize.ShloMosaic.StableHlo Idealize.ShloMosaic.ValueIdx

/-- @main's operations in order, the calls unfolded: the index table and the aligned reshape; the shift (two slices laid
    end to end); its reshape, the first 127 chunks, the two families end to end; then the take: the normalisation of
    negative indices (seven operations), the start indices as a column, the range mask (nine), the gather, the mask
    broadcast, the fill value and the select. -/
abbrev ops : List (HloOp τ sig (Elt Ideal)) :=
  [ nullary main_c (fun i => lit0 (S255.rowMajor i)),
    reshape main_arg0 main_v0 rfl shapeCasts_S16x32000x64_S16x128x250x64,
    unary main_arg0 main_call0_v0 ((extractStridedSlice S16x31875x64 ![0, 125, 0] · slices_S16x32000x64_S16x31875x64_0_125_0) : (⟨S16x32000x64, .f32⟩ : BufTy).Contents (Elt Ideal) → (⟨S16x31875x64, .f32⟩ : BufTy).Contents (Elt Ideal)),
    unary main_arg0 main_call0_v1 ((extractStridedSlice S16x125x64 ![0, 0, 0] · slices_S16x32000x64_S16x125x64_0_0_0) : (⟨S16x32000x64, .f32⟩ : BufTy).Contents (Elt Ideal) → (⟨S16x125x64, .f32⟩ : BufTy).Contents (Elt Ideal)),
    binary main_call0_v0 main_call0_v1 main_v1 ((fun a b => concatenate S16x32000x64 1 [⟨S16x31875x64, a⟩, ⟨S16x125x64, b⟩] concatenates_S16x31875x64_S16x125x64_S16x32000x64_d1) : (⟨S16x31875x64, .f32⟩ : BufTy).Contents (Elt Ideal) → (⟨S16x125x64, .f32⟩ : BufTy).Contents (Elt Ideal) → (⟨S16x32000x64, .f32⟩ : BufTy).Contents (Elt Ideal)),
    reshape main_v1 main_v2 rfl shapeCasts_S16x32000x64_S16x128x250x64,
    unary main_v2 main_v3 ((extractStridedSlice S16x127x250x64 ![0, 0, 0, 0] · slices_S16x128x250x64_S16x127x250x64_0_0_0_0) : (⟨S16x128x250x64, .f32⟩ : BufTy).Contents (Elt Ideal) → (⟨S16x127x250x64, .f32⟩ : BufTy).Contents (Elt Ideal)),
    binary main_v0 main_v3 main_v4 ((fun a b => concatenate S16x255x250x64 1 [⟨S16x128x250x64, a⟩, ⟨S16x127x250x64, b⟩] concatenates_S16x128x250x64_S16x127x250x64_S16x255x250x64_d1) : (⟨S16x128x250x64, .f32⟩ : BufTy).Contents (Elt Ideal) → (⟨S16x127x250x64, .f32⟩ : BufTy).Contents (Elt Ideal) → (⟨S16x255x250x64, .f32⟩ : BufTy).Contents (Elt Ideal)),
    nullary main_call1_c (constantI S_ 32 0#32 : (⟨S_, .i32⟩ : BufTy).Contents (Elt Ideal)),
    unary main_call1_c main_call1_v0 (broadcastInDim S255 ![] bcast_S_S255 : (⟨S_, .i32⟩ : BufTy).Contents (Elt Ideal) → (⟨S255, .i32⟩ : BufTy).Contents (Elt Ideal)),
    binary main_c main_call1_v0 main_call1_v1 (cmpi .slt : (⟨S255, .i32⟩ : BufTy).Contents (Elt Ideal) → (⟨S255, .i32⟩ : BufTy).Contents (Elt Ideal) → (⟨S255, .i1⟩ : BufTy).Contents (Elt Ideal)),
    nullary main_call1_c_0 (constantI S_ 32 255#32 : (⟨S_, .i32⟩ : BufTy).Contents (Elt Ideal)),
    unary main_call1_c_0 main_call1_v2 (broadcastInDim S255 ![] bcast_S_S255 : (⟨S_, .i32⟩ : BufTy).Contents (Elt Ideal) → (⟨S255, .i32⟩ : BufTy).Contents (Elt Ideal)),
    binary main_c main_call1_v2 main_call1_v3 (addi : (⟨S255, .i32⟩ : BufTy).Contents (Elt Ideal) → (⟨S255, .i32⟩ : BufTy).Contents (Elt Ideal) → (⟨S255, .i32⟩ : BufTy).Contents (Elt Ideal)),
    ternary main_call1_v1 main_call1_v3 main_c main_call1_v4 (select : (⟨S255, .i1⟩ : BufTy).Contents (Elt Ideal) → (⟨S255, .i32⟩ : BufTy).Contents (Elt Ideal) → (⟨S255, .i32⟩ : BufTy).Contents (Elt Ideal) → (⟨S255, .i32⟩ : BufTy).Contents (Elt Ideal)),
    unary main_call1_v4 main_call1_v5 (broadcastInDim S255x1 ![0] bcast_S255_S255x1_0 : (⟨S255, .i32⟩ : BufTy).Contents (Elt Ideal) → (⟨S255x1, .i32⟩ : BufTy).Contents (Elt Ideal)),
    nullary main_call1_c_1 (constantI S1 32 254#32 : (⟨S1, .i32⟩ : BufTy).Contents (Elt Ideal)),
    nullary main_call1_c_2 (constantI S_ 32 0#32 : (⟨S_, .i32⟩ : BufTy).Contents (Elt Ideal)),
    unary main_call1_c_2 main_call1_v6 (broadcastInDim S255x1 ![] bcast_S_S255x1 : (⟨S_, .i32⟩ : BufTy).Contents (Elt Ideal) → (⟨S255x1, .i32⟩ : BufTy).Contents (Elt Ideal)),
    binary main_call1_v5 main_call1_v6 main_call1_v7 (cmpi .sge : (⟨S255x1, .i32⟩ : BufTy).Contents (Elt Ideal) → (⟨S255x1, .i32⟩ : BufTy).Contents (Elt Ideal) → (⟨S255x1, .i1⟩ : BufTy).Contents (Elt Ideal)),
    unary main_call1_c_1 main_call1_v8 (broadcastInDim S1x1 ![1] bcast_S1_S1x1_1 : (⟨S1, .i32⟩ : BufTy).Contents (Elt Ideal) → (⟨S1x1, .i32⟩ : BufTy).Contents (Elt Ideal)),
    unary main_call1_v8 main_call1_v9 (broadcastInDim S255x1 ![0, 1] bcast_S1x1_S255x1_0_1 : (⟨S1x1, .i32⟩ : BufTy).Contents (Elt Ideal) → (⟨S255x1, .i32⟩ : BufTy).Contents (Elt Ideal)),
    binary main_call1_v5 main_call1_v9 main_call1_v10 (cmpi .sle : (⟨S255x1, .i32⟩ : BufTy).Contents (Elt Ideal) → (⟨S255x1, .i32⟩ : BufTy).Contents (Elt Ideal) → (⟨S255x1, .i1⟩ : BufTy).Contents (Elt Ideal)),
    binary main_call1_v7 main_call1_v10 main_call1_v11 (andi : (⟨S255x1, .i1⟩ : BufTy).Contents (Elt Ideal) → (⟨S255x1, .i1⟩ : BufTy).Contents (Elt Ideal) → (⟨S255x1, .i1⟩ : BufTy).Contents (Elt Ideal)),
    nullary main_call1_c_3 (constantI S_ 1 1#1 : (⟨S_, .i1⟩ : BufTy).Contents (Elt Ideal)),
    binary main_call1_v11 main_call1_c_3 main_call1_v12 ((fun x v => Host.reduce IntOp.andi x v reducesTo_S255x1_S255_d1 h_S_) : (⟨S255x1, .i1⟩ : BufTy).Contents (Elt Ideal) → (⟨S_, .i1⟩ : BufTy).Contents (Elt Ideal) → (⟨S255, .i1⟩ : BufTy).Contents (Elt Ideal)),
    binary main_v4 main_call1_v5 main_call1_v13 ((fun x i => Host.gather gather_S16x255x250x64_S255x1_S16x255x250x64_023_1_n_n_1_1_16125064 x i) : (⟨S16x255x250x64, .f32⟩ : BufTy).Contents (Elt Ideal) → (⟨S255x1, .i32⟩ : BufTy).Contents (Elt Ideal) → (⟨S16x255x250x64, .f32⟩ : BufTy).Contents (Elt Ideal)),
    unary main_call1_v12 main_call1_v14 (broadcastInDim S16x255x250x64 ![1] bcast_S255_S16x255x250x64_1 : (⟨S255, .i1⟩ : BufTy).Contents (Elt Ideal) → (⟨S16x255x250x64, .i1⟩ : BufTy).Contents (Elt Ideal)),
    nullary main_call1_cst (constant (F := Ideal) S_ .f32 0x7FC00000#32 : (⟨S_, .f32⟩ : BufTy).Contents (Elt Ideal)),
    unary main_call1_cst main_call1_v15 (broadcastInDim S16x255x250x64 ![] bcast_S_S16x255x250x64 : (⟨S_, .f32⟩ : BufTy).Contents (Elt Ideal) → (⟨S16x255x250x64, .f32⟩ : BufTy).Contents (Elt Ideal)),
    ternary main_call1_v14 main_call1_v13 main_call1_v15 main_v5 (select : (⟨S16x255x250x64, .i1⟩ : BufTy).Contents (Elt Ideal) → (⟨S16x255x250x64, .f32⟩ : BufTy).Contents (Elt Ideal) → (⟨S16x255x250x64, .f32⟩ : BufTy).Contents (Elt Ideal) → (⟨S16x255x250x64, .f32⟩ : BufTy).Contents (Elt Ideal)) ]

set_option maxRecDepth 4096 in
/-- @main is that straight line: the functions' definitions unfolded at their calls, sequencing reassociated; a typed
    reference's operation at a literal buffer is the plain one. -/
theorem main_eq (c : Dev nD) : main (F := Ideal) c = seq ops := by
  simp only [main, fn_roll_static.body, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨nullary_bufs_sub .., reshape_bufs_sub .., unary_bufs_sub .., unary_bufs_sub .., binary_bufs_sub .., reshape_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub ..⟩

theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The index table -/

/-- Entry `j` of the table is `j / 2` for even `j` (an aligned chunk) and `128 + j / 2` for odd `j` (a shifted one). -/
theorem lit0_toNat : ∀ j : Fin 255, (lit0 j).toNat = j.val / 2 + 128 * (j.val % 2) := by decide

/-! ## The layout operations at an index -/

section Layout
variable {α : Type}

/-- The reshape into chunks of 250 samples: chunk `k`, offset `c` is sample `250 * k + c`. -/
theorem chunks_apply (x : S16x32000x64.Idx → α) (b : Fin 16) (k : Fin 128) (c : Fin 250) (f : Fin 64) :
    shapeCast S16x128x250x64 x shapeCasts_S16x32000x64_S16x128x250x64 (ix4 b k c f)
      = x (ix3 b ⟨250 * k.val + c.val, by omega⟩ f) := by
  refine shapeCast_apply x _ (ix4 b k c f) _ ?_
  rw [Shape.rowMajor_val_three, Shape.rowMajor_val_four]
  show (b.val * 32000 + (250 * k.val + c.val)) * 64 + f.val = ((b.val * 128 + k.val) * 250 + c.val) * 64 + f.val
  omega

/-- The signal shifted by 125 samples (its tail from sample 125, then its first 125 samples), read before the wrap:
    sample `s` of it is sample `s + 125` of the signal. -/
theorem shifted_apply (x : S16x32000x64.Idx → α) (b : Fin 16) (s : Fin 32000) (hs : s.val < 31875) (f : Fin 64) :
    concatenate S16x32000x64 1
        [⟨S16x31875x64, extractStridedSlice S16x31875x64 ![0, 125, 0] x slices_S16x32000x64_S16x31875x64_0_125_0⟩,
          ⟨S16x125x64, extractStridedSlice S16x125x64 ![0, 0, 0] x slices_S16x32000x64_S16x125x64_0_0_0⟩]
        concatenates_S16x31875x64_S16x125x64_S16x32000x64_d1 (ix3 b s f)
      = x (ix3 b ⟨s.val + 125, by omega⟩ f) := by
  refine (concatenate_pair_apply_left (s₁ := S16x31875x64) (s₂ := S16x125x64) (1 : Fin 3) _ _ _ (ix3 b s f) rfl (ix3 b (⟨s.val, hs⟩ : Fin 31875) f)
    (fun a => match a with | ⟨0, _⟩ => rfl | ⟨1, _⟩ => rfl | ⟨2, _⟩ => rfl)).trans ?_
  refine extractStridedSlice_apply _ x _ _ _ (fun a => match a with
    | ⟨0, _⟩ => by show b.val = 0 + b.val; omega
    | ⟨1, _⟩ => by show s.val + 125 = 125 + s.val; omega
    | ⟨2, _⟩ => by show f.val = 0 + f.val; omega)

end Layout

section Families
variable {α : Type}

/-- The two families end to end, read in the first: an aligned chunk. -/
theorem families_left (u : S16x128x250x64.Idx → α) (v : S16x127x250x64.Idx → α) (b : Fin 16) (k : Fin 255) (hk : k.val < 128)
    (c : Fin 250) (f : Fin 64) :
    concatenate S16x255x250x64 1 [⟨S16x128x250x64, u⟩, ⟨S16x127x250x64, v⟩]
        concatenates_S16x128x250x64_S16x127x250x64_S16x255x250x64_d1 (ix4 b k c f)
      = u (ix4 b (⟨k.val, hk⟩ : Fin 128) c f) :=
  concatenate_pair_apply_left (s₁ := S16x128x250x64) (s₂ := S16x127x250x64) (1 : Fin 4) _ _ _ (ix4 b k c f) rfl (ix4 b (⟨k.val, hk⟩ : Fin 128) c f)
    (fun a => match a with | ⟨0, _⟩ => rfl | ⟨1, _⟩ => rfl | ⟨2, _⟩ => rfl | ⟨3, _⟩ => rfl)

/-- The two families end to end, read in the second: a shifted chunk, 128 places on. -/
theorem families_right (u : S16x128x250x64.Idx → α) (v : S16x127x250x64.Idx → α) (b : Fin 16) (k : Fin 255) (hk : 128 ≤ k.val)
    (c : Fin 250) (f : Fin 64) :
    concatenate S16x255x250x64 1 [⟨S16x128x250x64, u⟩, ⟨S16x127x250x64, v⟩]
        concatenates_S16x128x250x64_S16x127x250x64_S16x255x250x64_d1 (ix4 b k c f)
      = v (ix4 b (⟨k.val - 128, by omega⟩ : Fin 127) c f) :=
  concatenate_pair_apply_right (s₁ := S16x128x250x64) (s₂ := S16x127x250x64) (1 : Fin 4) _ _ _ (ix4 b k c f) rfl rfl (ix4 b (⟨k.val - 128, by omega⟩ : Fin 127) c f)
    (fun a => match a with
      | ⟨0, _⟩ => fun _ => rfl
      | ⟨1, _⟩ => fun h => absurd rfl h
      | ⟨2, _⟩ => fun _ => rfl
      | ⟨3, _⟩ => fun _ => rfl)
    (by show k.val - 128 + 128 = k.val; omega)

/-- The first 127 chunks of an array of 128 chunks are its own. -/
theorem first127_apply (u : S16x128x250x64.Idx → α) (b : Fin 16) (k : Fin 127) (c : Fin 250) (f : Fin 64) :
    extractStridedSlice S16x127x250x64 ![0, 0, 0, 0] u slices_S16x128x250x64_S16x127x250x64_0_0_0_0 (ix4 b k c f)
      = u (ix4 b (⟨k.val, by omega⟩ : Fin 128) c f) :=
  extractStridedSlice_apply _ u _ _ _ (fun a => match a with
    | ⟨0, _⟩ => by show b.val = 0 + b.val; omega
    | ⟨1, _⟩ => by show k.val = 0 + k.val; omega
    | ⟨2, _⟩ => by show c.val = 0 + c.val; omega
    | ⟨3, _⟩ => by show f.val = 0 + f.val; omega)

end Families

section Gather
variable {α : Type}

local notation "gd" => gather_S16x255x250x64_S255x1_S16x255x250x64_023_1_n_n_1_1_16125064

/-- The take's gather at an entry: chunk `j` of the result is the operand's chunk at start index `j`, read signed and
    clamped into `0 … 254`; the other three coordinates are the entry's own. -/
theorem take_apply (x : S16x255x250x64.Idx → α) (idx : IVec S255x1 32) (b : Fin 16) (j : Fin 255) (c : Fin 250) (f : Fin 64) :
    Host.gather gd x idx (ix4 b j c f)
      = x (ix4 b (⟨min (idx (ix2 j (0 : Fin 1))).toInt.toNat 254, by omega⟩ : Fin 255) c f) := by
  unfold Host.gather
  congr 1
  funext a
  apply Fin.ext
  have hb : ∀ a : Fin 4, GatherDims.batchCoord gd (ix4 b j c f) a = 0 := fun a => GatherDims.batchCoord_eq_zero gd _ a List.not_mem_nil
  match a with
  | ⟨0, _⟩ =>
    show GatherDims.start gd (ix4 b j c f) idx 0 + GatherDims.batchCoord gd (ix4 b j c f) 0 + GatherDims.offCoord gd (ix4 b j c f) 0 = b.val
    have h0 : GatherDims.start gd (ix4 b j c f) idx 0 = 0 := by unfold GatherDims.start; exact dif_neg (by decide)
    have h1 : GatherDims.offCoord gd (ix4 b j c f) 0 = b.val := by
      unfold GatherDims.offCoord; rw [dif_pos (by decide)]; rfl
    rw [hb, h0, h1]; omega
  | ⟨1, _⟩ =>
    show GatherDims.start gd (ix4 b j c f) idx 1 + GatherDims.batchCoord gd (ix4 b j c f) 1 + GatherDims.offCoord gd (ix4 b j c f) 1
      = min (idx (ix2 j (0 : Fin 1))).toInt.toNat 254
    have h1 : GatherDims.offCoord gd (ix4 b j c f) 1 = 0 := GatherDims.offCoord_eq_zero gd _ 1 (by decide)
    have hm : (1 : Fin 4) ∈ GatherDims.startIndexMap gd := by decide
    have h0 : GatherDims.start gd (ix4 b j c f) idx 1 = min (idx (ix2 j (0 : Fin 1))).toInt.toNat 254 := by
      unfold GatherDims.start
      rw [dif_pos hm]
      show min (idx _).toInt.toNat 254 = _
      congr 3
      congr 1
      funext a'
      match a' with
      | ⟨0, _⟩ => rfl
      | ⟨1, _⟩ => rfl
    rw [hb, h0, h1]; rfl
  | ⟨2, _⟩ =>
    show GatherDims.start gd (ix4 b j c f) idx 2 + GatherDims.batchCoord gd (ix4 b j c f) 2 + GatherDims.offCoord gd (ix4 b j c f) 2 = c.val
    have h0 : GatherDims.start gd (ix4 b j c f) idx 2 = 0 := by unfold GatherDims.start; exact dif_neg (by decide)
    have h1 : GatherDims.offCoord gd (ix4 b j c f) 2 = c.val := by
      unfold GatherDims.offCoord; rw [dif_pos (by decide)]; rfl
    rw [hb, h0, h1]; omega
  | ⟨3, _⟩ =>
    show GatherDims.start gd (ix4 b j c f) idx 3 + GatherDims.batchCoord gd (ix4 b j c f) 3 + GatherDims.offCoord gd (ix4 b j c f) 3 = f.val
    have h0 : GatherDims.start gd (ix4 b j c f) idx 3 = 0 := by unfold GatherDims.start; exact dif_neg (by decide)
    have h1 : GatherDims.offCoord gd (ix4 b j c f) 3 = f.val := by
      unfold GatherDims.offCoord; rw [dif_pos (by decide)]; rfl
    rw [hb, h0, h1]; omega

end Gather

/-! ## The start indices and the range mask -/

section Indices

/-- The index table as the array the first operation writes. -/
abbrev tbl : IVec S255 32 := fun i => lit0 (S255.rowMajor i)

theorem tbl_apply (j : Fin 255) : tbl (ix1 j) = lit0 j := by
  show lit0 (S255.rowMajor (ix1 j)) = lit0 j
  congr 1
  exact Fin.ext (Shape.rowMajor_val_one _)

/-- No entry of the table is negative, and every entry is at most 254: the take normalises nothing and masks nothing. -/
theorem lit0_not_neg : ∀ j : Fin 255, IntOp.cmpi .slt (lit0 j) 0#32 = 0#1 := by decide
theorem lit0_in_range : ∀ j : Fin 255, IntOp.andi (IntOp.cmpi .sge (lit0 j) 0#32) (IntOp.cmpi .sle (lit0 j) 254#32) = 1#1 := by decide
/-- The chunk entry `j` names, read signed and clamped as the gather reads it. -/
theorem lit0_start : ∀ j : Fin 255, min (lit0 j).toInt.toNat 254 = j.val / 2 + 128 * (j.val % 2) := by decide

/-- The indices after the normalisation of negative ones (`i < 0 ? i + 255 : i`). -/
abbrev nrm : IVec S255 32 :=
  select (cmpi .slt tbl (broadcastInDim S255 ![] bcast_S_S255 (constantI S_ 32 0#32)))
    (addi tbl (broadcastInDim S255 ![] bcast_S_S255 (constantI S_ 32 255#32))) tbl

theorem nrm_apply (j : Fin 255) : nrm (ix1 j) = lit0 j := by
  show Scalar.select (IntOp.cmpi .slt (tbl (ix1 j)) 0#32) (IntOp.addi (tbl (ix1 j)) 255#32) (tbl (ix1 j)) = lit0 j
  rw [tbl_apply, lit0_not_neg, select_zero]

/-- The start indices as a column. -/
abbrev col : IVec S255x1 32 := broadcastInDim S255x1 ![0] bcast_S255_S255x1_0 nrm

theorem col_apply (j : Fin 255) : col (ix2 j (0 : Fin 1)) = lit0 j := by
  refine (broadcastInDim_apply _ _ nrm (ix2 j (0 : Fin 1)) (ix1 j) (fun a => match a with | ⟨0, _⟩ => rfl)).trans (nrm_apply j)

/-- The range test `0 ≤ i ≤ 254` on the column. -/
abbrev inRange : IVec S255x1 1 :=
  andi (cmpi .sge col (broadcastInDim S255x1 ![] bcast_S_S255x1 (constantI S_ 32 0#32)))
    (cmpi .sle col (broadcastInDim S255x1 ![0, 1] bcast_S1x1_S255x1_0_1 (broadcastInDim S1x1 ![1] bcast_S1_S1x1_1 (constantI S1 32 254#32))))

theorem inRange_apply (i : S255x1.Idx) : inRange i = 1#1 := by
  obtain ⟨j, z, rfl⟩ : ∃ (j : Fin 255) (z : Fin 1), i = ix2 j z := ⟨i 0, i 1, eq_ix2 i⟩
  obtain rfl : z = 0 := Subsingleton.elim _ _
  show IntOp.andi (IntOp.cmpi .sge (col (ix2 j (0 : Fin 1))) 0#32) (IntOp.cmpi .sle (col (ix2 j (0 : Fin 1))) 254#32) = 1#1
  rw [col_apply, lit0_in_range]

/-- A reduction by `and` of an array of ones, from one, is one. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl]
  have key : ∀ (l : List s.Idx) (r : BitVec 1), r = 1#1 → l.foldl (fun r i => IntOp.andi r (x i)) r = 1#1 := by
    intro l
    induction l with
    | nil => intro r hr; exact hr
    | cons a l ih => intro r hr; exact ih _ (IntOp.andi_eq_one.2 ⟨hr, hx a⟩)
  exact key _ _ (hi _)

/-- The mask, one bit per chunk. -/
abbrev allIn : IVec S255 1 := Host.reduce IntOp.andi inRange (constantI S_ 1 1#1) reducesTo_S255x1_S255_d1 h_S_

theorem allIn_apply (i : S255.Idx) : allIn i = 1#1 :=
  reduce_andi_of_all _ _ _ _ i inRange_apply (fun _ => rfl)

/-- The mask over the result. -/
abbrev mask : IVec S16x255x250x64 1 := broadcastInDim S16x255x250x64 ![1] bcast_S255_S16x255x250x64_1 allIn

theorem mask_apply (i : S16x255x250x64.Idx) : mask i = 1#1 := by
  show allIn _ = 1#1
  exact allIn_apply _

end Indices

/-! ## The result -/

section Result
variable {α : Type}

/-- The 128 aligned chunks. -/
abbrev aligned (x : S16x32000x64.Idx → α) : S16x128x250x64.Idx → α :=
  shapeCast S16x128x250x64 x shapeCasts_S16x32000x64_S16x128x250x64

/-- The signal shifted by half a chunk. -/
abbrev shifted (x : S16x32000x64.Idx → α) : S16x32000x64.Idx → α :=
  concatenate S16x32000x64 1
    [⟨S16x31875x64, extractStridedSlice S16x31875x64 ![0, 125, 0] x slices_S16x32000x64_S16x31875x64_0_125_0⟩,
      ⟨S16x125x64, extractStridedSlice S16x125x64 ![0, 0, 0] x slices_S16x32000x64_S16x125x64_0_0_0⟩]
    concatenates_S16x31875x64_S16x125x64_S16x32000x64_d1

/-- The 127 chunks in between: the first 127 chunks of the shifted signal. -/
abbrev between (x : S16x32000x64.Idx → α) : S16x127x250x64.Idx → α :=
  extractStridedSlice S16x127x250x64 ![0, 0, 0, 0]
    (shapeCast S16x128x250x64 (shifted x) shapeCasts_S16x32000x64_S16x128x250x64) slices_S16x128x250x64_S16x127x250x64_0_0_0_0

/-- The two families end to end. -/
abbrev families (x : S16x32000x64.Idx → α) : S16x255x250x64.Idx → α :=
  concatenate S16x255x250x64 1 [⟨S16x128x250x64, aligned x⟩, ⟨S16x127x250x64, between x⟩]
    concatenates_S16x128x250x64_S16x127x250x64_S16x255x250x64_d1

/-- Two reads of the signal at the same sample are equal. -/
theorem read_congr (x : S16x32000x64.Idx → α) (b : Fin 16) (s s' : Fin 32000) (h : s.val = s'.val) (f : Fin 64) :
    x (ix3 b s f) = x (ix3 b s' f) := by rw [Fin.ext h]

/-- Place `k < 128` of the two families is aligned chunk `k`: it starts at sample `250 * k`. -/
theorem families_aligned (x : S16x32000x64.Idx → α) (b : Fin 16) (k : Fin 255) (hk : k.val < 128) (c : Fin 250) (f : Fin 64) :
    families x (ix4 b k c f) = x (ix3 b ⟨250 * k.val + c.val, by omega⟩ f) :=
  (families_left _ _ b k hk c f).trans (chunks_apply x b ⟨k.val, hk⟩ c f)

/-- Place `128 + k` of the two families is shifted chunk `k`: it starts at sample `250 * k + 125`. -/
theorem families_between (x : S16x32000x64.Idx → α) (b : Fin 16) (k : Fin 255) (hk : 128 ≤ k.val) (c : Fin 250) (f : Fin 64) :
    families x (ix4 b k c f) = x (ix3 b ⟨250 * (k.val - 128) + c.val + 125, by omega⟩ f) :=
  (families_right _ _ b k hk c f).trans ((first127_apply _ b ⟨k.val - 128, by omega⟩ c f).trans
    ((chunks_apply (shifted x) b ⟨k.val - 128, by omega⟩ c f).trans
      (shifted_apply x b ⟨250 * (k.val - 128) + c.val, by omega⟩ (by show 250 * (k.val - 128) + c.val < 31875; omega) f)))

/-- The place the table's entry `j` names holds the chunk that starts at sample `125 * j`. -/
theorem families_at_entry (x : S16x32000x64.Idx → α) (b : Fin 16) (j : Fin 255) (c : Fin 250) (f : Fin 64) :
    families x (ix4 b (⟨j.val / 2 + 128 * (j.val % 2), by omega⟩ : Fin 255) c f)
      = x (ix3 b ⟨125 * j.val + c.val, Cert.Spec.sample_lt j c⟩ f) := by
  rcases Nat.mod_two_eq_zero_or_one j.val with h | h
  · exact (families_aligned x b _ (by show j.val / 2 + 128 * (j.val % 2) < 128; omega) c f).trans
      (read_congr x b _ _ (by show 250 * (j.val / 2 + 128 * (j.val % 2)) + c.val = 125 * j.val + c.val; omega) f)
  · exact (families_between x b _ (by show 128 ≤ j.val / 2 + 128 * (j.val % 2); omega) c f).trans
      (read_congr x b _ _ (by show 250 * (j.val / 2 + 128 * (j.val % 2) - 128) + c.val + 125 = 125 * j.val + c.val; omega) f)

end Result

/-- The reference's result as a function of the signal: the take of the two families at the table, under the mask. -/
def out (x : (⟨S16x32000x64, .f32⟩ : BufTy).Contents (Elt Ideal)) : (⟨S16x255x250x64, .f32⟩ : BufTy).Contents (Elt Ideal) :=
  select mask (Host.gather gather_S16x255x250x64_S255x1_S16x255x250x64_023_1_n_n_1_1_16125064 (families x) col)
    (broadcastInDim S16x255x250x64 ![] bcast_S_S16x255x250x64 (constant (F := Ideal) S_ .f32 0x7FC00000#32))

/-- Entry by entry the result is the signal at sample `125 * j + c`. -/
theorem out_apply (x : (⟨S16x32000x64, .f32⟩ : BufTy).Contents (Elt Ideal)) (b : Fin 16) (j : Fin 255) (c : Fin 250) (f : Fin 64) :
    out x (ix4 b j c f) = x (ix3 b ⟨125 * j.val + c.val, Cert.Spec.sample_lt j c⟩ f) := by
  have hk : (⟨min (col (ix2 j (0 : Fin 1))).toInt.toNat 254, by omega⟩ : Fin 255) = ⟨j.val / 2 + 128 * (j.val % 2), by omega⟩ :=
    Fin.ext ((congrArg (fun w : BitVec 32 => min w.toInt.toNat 254) (col_apply j)).trans (lit0_start j))
  show Scalar.select (mask (ix4 b j c f)) (Host.gather gather_S16x255x250x64_S255x1_S16x255x250x64_023_1_n_n_1_1_16125064 (families x) col (ix4 b j c f)) _ = _
  rw [mask_apply, select_one, take_apply, hk]
  exact families_at_entry x b j c f

theorem out_eq_G (x : (⟨S16x32000x64, .f32⟩ : BufTy).Contents (Elt Ideal)) : out x = Cert.Spec.G x := by
  funext i
  obtain ⟨b, j, c, f, rfl⟩ : ∃ (b : Fin 16) (j : Fin 255) (c : Fin 250) (f : Fin 64), i = ix4 b j c f := ⟨i 0, i 1, i 2, i 3, eq_ix4 i⟩
  rw [out_apply, Cert.Spec.G_apply, Cert.Spec.src_ix4]

/-! ## The run -/

attribute [local irreducible] Host.reduce Host.gather concatenate shapeCast extractStridedSlice broadcastInDim in
/-- What the result buffer holds after the operations: each operation's value at its operands' values. -/
theorem out_eq (V : Valuation τ sig (Elt Ideal)) :
    after ops V (main_v5 : DevRef τ sig) = out (V (main_arg0 : DevRef τ sig)) := by
  after_results
  rfl

/-- No operation writes the signal. -/
theorem arg0_eq (V : Valuation τ sig (Elt Ideal)) :
    after ops V (main_arg0 : DevRef τ sig) = V (main_arg0 : DevRef τ sig) := by
  after_results

/-- Every weakly fair execution of the reference ends with the result at the chunked signal and the signal unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Spec.G (m ((c.tc : Thread nD τ).loc main_arg0))
      ∧ r.2.mem ((c.tc : Thread nD τ).loc main_arg0) = m ((c.tc : Thread nD τ).loc main_arg0)) :=
  (θ_run defs _ _).mono (fun _ h c => ⟨(h c main_v5).trans ((out_eq _).trans (out_eq_G _)), (h c main_arg0).trans (arg0_eq _)⟩)
    (run_main m ρ)

end Cert.ReferenceIdeal.Hand

end
-- ==== Proof.lean ====
/-
  The certificate. Kernel and reference both chop a signal `x[b, s, f]` of 32000 samples into 255 half-overlapping
  chunks of 250 samples: `out[b, j, c, f] = x[b, 125 j + c, f]` (`Cert.Spec.G`). No float is ever computed, only
  moved, so the two idealized programs agree entry by entry on every input and the finiteness of the input is never
  used.

  The kernel pads the signal with 256 rows, runs a pipeline of 32 points — point `t` reads rows `1000 t ‥ 1000 t + 1000`
  and the 200 rows after them through two windows on the one padded array, and writes chunks `8 t ‥ 8 t + 8` — and keeps
  the first 255 of the 256 chunks; the rows a kept chunk reads stay below 32000, so the pad value never shows. Its frame,
  at machine words and at the ideal instance alike, is the pipeline library's launch with the shared array's share dealt
  by halves to the two windows (`run_region`); its value is the blocks pieced together (`value`). The reference
  reshapes, shifts, reshapes again, concatenates and gathers by a constant table; its run is `Cert.ReferenceIdeal.Hand.run`.
  The ideal pass rewrote nothing, so there is nothing to preserve.
-/
import proofs.«117220_j62783831933059_1_alg».proof.Defs
import proofs.«117220_j62783831933059_1_alg».proof.Proof.Gen.Kernel
import proofs.«117220_j62783831933059_1_alg».proof.Proof.Gen.KernelIdeal
import proofs.«117220_j62783831933059_1_alg».proof.Proof.Gen.ReferenceIdeal
import proofs.«117220_j62783831933059_1_alg».proof.Proof.Gen.Pre_finite_inputs
import proofs.«117220_j62783831933059_1_alg».proof.Proof.WLaunch
import proofs.«117220_j62783831933059_1_alg».proof.Proof.KLaunch
import proofs.«117220_j62783831933059_1_alg».proof.Proof.KValue
import proofs.«117220_j62783831933059_1_alg».proof.Proof.RefRun
import Idealize.ShloMosaic.Adequacy
import Idealize.ShloMosaic.Init

noncomputable section

namespace Cert.Proof

open Idealize.ShloMosaic Idealize.ShloMosaic.TcCoe Idealize.SL.Sem

/-- The program at machine words runs to the end and leaves the signal as it was. -/
theorem frame_words : Cert.frame_Kernel := fun m ρ _ =>
  (θ_run (Cert.Kernel.defs (F := Bits)) _ _).mono (fun _ h c => (h c).2) (Cert.Kernel.Hand.run_region (F := Bits) m ρ)

/-- So does the idealized program. -/
theorem frame_ideal : Cert.frame_KernelIdeal := fun m ρ _ =>
  (θ_run (Cert.KernelIdeal.defs (F := Ideal)) _ _).mono (fun _ h c => (h c).2) (Cert.KernelIdeal.Hand.run_region (F := Ideal) m ρ)

/-- And the reference. -/
theorem frame_reference : Cert.frame_ReferenceIdeal := fun m ρ _ =>
  (θ_run (Cert.ReferenceIdeal.defs (F := Ideal)) _ _).mono (fun _ h c => (h c).2) (Cert.ReferenceIdeal.Hand.run m ρ)

/-- The ideal pass rewrote no operation. -/
theorem preserves : Cert.preserves_Kernel_KernelIdeal := trivial

/-- From memories that agree on the signal both idealized programs end with the chunked signal as their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)), ?_, ?_⟩
  · exact (θ_run (Cert.KernelIdeal.defs (F := Ideal)) _ _).mono
      (fun _ h c => ⟨(h c).1.trans (Cert.KernelIdeal.Hand.value m c), (h c).2⟩)
      (Cert.KernelIdeal.Hand.run_region (F := Ideal) m ρ)
  · exact (θ_run (Cert.ReferenceIdeal.defs (F := Ideal)) _ _).mono
      (fun _ h c => ⟨(h c).1.trans (congrArg Cert.Spec.G (hagree c)), (h c).2⟩)
      (Cert.ReferenceIdeal.Hand.run m' ρ')

theorem claim : Cert.Claim :=
  ⟨Cert.Kernel.Gen.facts, Cert.KernelIdeal.Gen.facts, Cert.ReferenceIdeal.Gen.facts, Cert.Pre_finite_inputs.Gen.facts,
    frame_words, frame_ideal, frame_reference, preserves, algebraic⟩

end Cert.Proof

end
